-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64 : Shape := ⟨1, ![64]⟩
abbrev S32x1024x4096 : Shape := ⟨3, ![32, 1024, 4096]⟩
abbrev S32x4096 : Shape := ⟨2, ![32, 4096]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S32x1024x4096 : S_.BroadcastsInDim S32x1024x4096 (![] : Fin 0 → Fin S32x1024x4096.rank)
  reducesTo_S32x1024x4096_S_d0_1_2 : S32x1024x4096.ReducesTo [0, 1, 2] S_
  bcast_S_S32x4096 : S_.BroadcastsInDim S32x4096 (![] : Fin 0 → Fin S32x4096.rank)
  reducesTo_S32x4096_S_d0_1 : S32x4096.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .slt main_arg1 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  main_v20

def fn {F : FTy → Type} [FloatOps F] (main_arg0 : FVec F S64x512x1024 .f32) (main_arg1 : IVec S64 32) (main_arg2 : FVec F S32x1024x4096 .f32) (main_arg3 : FVec F S32x4096 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S32x1024x4096 .f32 := Host.absf main_arg2
  let main_cst_0 : FVec F S_ .f32 := constant S_ .f32 0x7F800000#32
  let main_v5 : FVec F S32x1024x4096 .f32 := broadcastInDim S32x1024x4096 ![] bcast_S_S32x1024x4096 main_cst_0
  let main_v6 : IVec S32x1024x4096 1 := cmpf .olt main_v4 main_v5
  let main_c_1 : IVec S_ 1 := constantI S_ 1 1#1
  let main_v7 : IVec S_ 1 := (fun x v => Host.reduce IntOp.andi x v reducesTo_S32x1024x4096_S_d0_1_2 h_S_) main_v6 main_c_1
  let main_v8 : IVec S_ 1 := andi main_v3 main_v7
  let main_v9 : FVec F S32x4096 .f32 := Host.absf main_arg3
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 32 := constantI S_ 32 32#32
  fn_part1 (F := F) main_arg1 main_v13 main_v15 main_c_5
-- ==== Kernel.lean ====
abbrev S64x512x1024 : Shape := ⟨3, ![64, 512, 1024]⟩
abbrev S64 : Shape := ⟨1, ![64]⟩
abbrev S32x1024x4096 : Shape := ⟨3, ![32, 1024, 4096]⟩
abbrev S32x4096 : Shape := ⟨2, ![32, 4096]⟩
abbrev S_ : Shape := ⟨0, ![]⟩
abbrev S64x1 : Shape := ⟨2, ![64, 1]⟩
abbrev S32x1x4096 : Shape := ⟨3, ![32, 1, 4096]⟩
abbrev S64x512x4096 : Shape := ⟨3, ![64, 512, 4096]⟩
abbrev S1x128x1024 : Shape := ⟨3, ![1, 128, 1024]⟩
abbrev S1 : Shape := ⟨1, ![1]⟩
abbrev S1x1024x4096 : Shape := ⟨3, ![1, 1024, 4096]⟩
abbrev S1x1x4096 : Shape := ⟨3, ![1, 1, 4096]⟩
abbrev S1x128x4096 : Shape := ⟨3, ![1, 128, 4096]⟩
abbrev S128x1024 : Shape := ⟨2, ![128, 1024]⟩
abbrev S1024x4096 : Shape := ⟨2, ![1024, 4096]⟩
abbrev S128x4096 : Shape := ⟨2, ![128, 4096]⟩
abbrev S1x4096 : Shape := ⟨2, ![1, 4096]⟩

abbrev nBuf : Space → Nat
  | .hbm => 24
  | .vmem => 6
  | .smem => 2
  | _ => 0

abbrev bufTy : (tb : Table) → Fin (tcTables nBuf tb) → BufTy
  | .hbm, ⟨0, _⟩ => ⟨S64x512x1024, .f32⟩
  | .hbm, ⟨1, _⟩ => ⟨S64, .i32⟩
  | .hbm, ⟨2, _⟩ => ⟨S32x1024x4096, .f32⟩
  | .hbm, ⟨3, _⟩ => ⟨S32x4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S32x1x4096, .f32⟩
  | .hbm, ⟨23, _⟩ => ⟨S64x512x4096, .f32⟩
  | .local _ .vmem, ⟨0, _⟩ => ⟨S1x128x1024, .f32⟩
  | .local _ .vmem, ⟨1, _⟩ => ⟨S1x128x1024, .f32⟩
  | .local _ .vmem, ⟨2, _⟩ => ⟨S1x1024x4096, .f32⟩
  | .local _ .vmem, ⟨3, _⟩ => ⟨S1x1x4096, .f32⟩
  | .local _ .vmem, ⟨4, _⟩ => ⟨S1x128x4096, .f32⟩
  | .local _ .vmem, ⟨5, _⟩ => ⟨S1x128x4096, .f32⟩
  | .local _ .smem, ⟨0, _⟩ => ⟨S64, .i32⟩
  | .local _ .smem, ⟨1, _⟩ => ⟨S64, .i32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9 : Ref sig .tc := ⟨.hbm, 22, rfl⟩
abbrev main_v10 : Ref sig .tc := ⟨.hbm, 23, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 4], ![false, false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  ![v1.toNat, arg1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  ![v1.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S32x4096_S32x1x4096_0_2 : S32x4096.BroadcastsInDim S32x1x4096 (![0, 2] : Fin 2 → Fin S32x1x4096.rank)
  numel1_S1 : S1.numel = 1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  bitsLt_bf16_f32 : FTy.bits .bf16 < FTy.bits .f32
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S128x4096 : S1x4096.Broadcasts S128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  gather_S64_S64x1_S64_n_0_n_n_0_1_1_wf : GatherDims.WF S64 S64x1 S64 [] [0] [] [0] [] 1 ![1]
  dot_S128x1024_S1024x4096_S128x4096_1_0_0_1_n_n_wf : DotDims.WF S128x1024 S1024x4096 S128x4096 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 true = 1
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev spec0_0 : Pipeline.WinSpec sig grid0.rank :=
  Pipeline.WinSpec.ofSpec (Memref.whole main_arg0) S1x128x1024.size reads0_0 false false 2 stage0_0 sem0_0 nbuf0_0 hstage0_0

abbrev spec0_1 : Pipeline.WinSpec sig grid0.rank :=
  Pipeline.WinSpec.ofSpec (Memref.whole main_arg2) S1x1024x4096.size reads0_1 false true 1 stage0_1 sem0_1 nbuf0_1 hstage0_1

abbrev spec0_2 : Pipeline.WinSpec sig grid0.rank :=
  Pipeline.WinSpec.ofSpec (Memref.whole main_v9) S1x1x4096.size reads0_2 false true 1 stage0_2 sem0_2 nbuf0_2 hstage0_2

abbrev spec0_3 : Pipeline.WinSpec sig grid0.rank :=
  Pipeline.WinSpec.ofSpec (Memref.whole main_v10) S1x128x4096.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x128x1024.size a ≤ S64x512x1024.size a), EltTy.bits .f32 = 32 ∨ (Rect.block (s := S64x512x1024) S1x128x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x4096.size a ≤ S32x1024x4096.size a), EltTy.bits .f32 = 32 ∨ (Rect.block (s := S32x1024x4096) S1x1024x4096.size (cc0_transform_1 k0_off1_inb numel1_S1 pf i) h).WholeWords (EltTy.packing .f32)) ∧
  (∀ i : grid0.Coords, ∃ h : (∀ a, (cc0_transform_2 k0_off1_inb numel1_S1 pf i a + 1) * S1x1x4096.size a ≤ S32x1x4096.size a), EltTy.bits .f32 = 32 ∨ (Rect.block (s := S32x1x4096) S1x1x4096.size (cc0_transform_2 k0_off1_inb numel1_S1 pf i) h).WholeWords (EltTy.packing .f32)) ∧
  (∀ i : grid0.Coords, ∃ h : (∀ a, (cc0_transform_3 k0_off1_inb numel1_S1 pf i a + 1) * S1x128x4096.size a ≤ S64x512x4096.size a), EltTy.bits .f32 = 32 ∨ (Rect.block (s := S64x512x4096) S1x128x4096.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x512x1024 : Shape := ⟨3, ![64, 512, 1024]⟩
abbrev S64 : Shape := ⟨1, ![64]⟩
abbrev S32x1024x4096 : Shape := ⟨3, ![32, 1024, 4096]⟩
abbrev S32x4096 : Shape := ⟨2, ![32, 4096]⟩
abbrev S_ : Shape := ⟨0, ![]⟩
abbrev S64x1 : Shape := ⟨2, ![64, 1]⟩
abbrev S64x1024x4096 : Shape := ⟨3, ![64, 1024, 4096]⟩
abbrev S64x4096 : Shape := ⟨2, ![64, 4096]⟩
abbrev S64x512x4096 : Shape := ⟨3, ![64, 512, 4096]⟩
abbrev S64x1x4096 : Shape := ⟨3, ![64, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64, .i32⟩
  | .hbm, ⟨2, _⟩ => ⟨S32x1024x4096, .f32⟩
  | .hbm, ⟨3, _⟩ => ⟨S32x4096, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x1024x4096, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x4096, .f32⟩
  | .hbm, ⟨22, _⟩ => ⟨S64x512x4096, .f32⟩
  | .hbm, ⟨23, _⟩ => ⟨S64x1x4096, .f32⟩
  | .hbm, ⟨24, _⟩ => ⟨S64x512x4096, .f32⟩
  | .hbm, ⟨25, _⟩ => ⟨S64x512x4096, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x4096_S64x1x4096_0_2 : S64x4096.BroadcastsInDim S64x1x4096 (![0, 2] : Fin 2 → Fin S64x1x4096.rank)
  bcast_S64x1x4096_S64x512x4096_0_1_2 : S64x1x4096.BroadcastsInDim S64x512x4096 (![0, 1, 2] : Fin 3 → Fin S64x512x4096.rank)
  gather_S32x1024x4096_S64x1_S64x1024x4096_12_0_n_n_0_1_110244096_wf : GatherDims.WF S32x1024x4096 S64x1 S64x1024x4096 [1, 2] [0] [] [0] [] 1 ![1, 1024, 4096]
  gather_S32x4096_S64x1_S64x4096_1_0_n_n_0_1_14096_wf : GatherDims.WF S32x4096 S64x1 S64x4096 [1] [0] [] [0] [] 1 ![1, 4096]
  dot_S64x512x1024_S64x1024x4096_S64x512x4096_2_1_1_2_0_0_wf : DotDims.WF S64x512x1024 S64x1024x4096 S64x512x4096 [2] [1] [1] [2] [0] [0]

variable [Facts₀]

def gather_S32x1024x4096_S64x1_S64x1024x4096_12_0_n_n_0_1_110244096 : GatherDims S32x1024x4096 S64x1 S64x1024x4096 where
  offsetDims := [1, 2]
  collapsedSliceDims := [0]
  operandBatchingDims := []
  startIndicesBatchingDims := []
  startIndexMap := [0]
  indexVectorDim := 1
  sliceSizes := ![1, 1024, 4096]
  wf := gather_S32x1024x4096_S64x1_S64x1024x4096_12_0_n_n_0_1_110244096_wf
def gather_S32x4096_S64x1_S64x4096_1_0_n_n_0_1_14096 : GatherDims S32x4096 S64x1 S64x4096 where
  offsetDims := [1]
  collapsedSliceDims := [0]
  operandBatchingDims := []
  startIndicesBatchingDims := []
  startIndexMap := [0]
  indexVectorDim := 1
  sliceSizes := ![1, 4096]
  wf := gather_S32x4096_S64x1_S64x4096_1_0_n_n_0_1_14096_wf
def dot_S64x512x1024_S64x1024x4096_S64x512x4096_2_1_1_2_0_0 : DotDims S64x512x1024 S64x1024x4096 S64x512x4096 where
  lhsContracting := [2]
  rhsContracting := [1]
  lhsNonContracting := [1]
  rhsNonContracting := [2]
  lhsBatch := [0]
  rhsBatch := [0]
  wf := dot_S64x512x1024_S64x1024x4096_S64x512x4096_2_1_1_2_0_0_wf

class Facts : Prop extends Facts₀ where

variable [Facts]
-- ==== Proof.CategoryLinear.lean ====
/-
  Per-sample linear layer chosen by a category id.

  For sample `j` of 64, with category `cat j` in 0 … 31, the result row block is
      out[j, s, h] = (∑ k < 1024, x[j, s, k] · W[cat j, k, h]) + b[cat j, h].
  This module states that function once, over the literal shapes, and collects the facts about
  32-bit words that the two programs' index arithmetic needs: a word that is signed-nonnegative and
  signed-below 32 is below 32 as a natural number, is left alone by a signed clip into [0, 31], by a
  "negative wraps by 32" select, and by the clamp of a gather's start index.
-/
import Idealize.ShloMosaic.PureOps.Ideal
import Idealize.ShloMosaic.Lib.ValueIdx

noncomputable section

open scoped BigOperators

namespace Cert.CategoryLinear

open Idealize.ShloMosaic Idealize.ShloMosaic.ValueIdx

/-! ## Words -/

theorem ofBool_eq_one (b : Bool) : BitVec.ofBool b = 1#1 ↔ b = true := by cases b <;> decide
theorem and1 : ∀ (a b : BitVec 1), IntOp.andi a b = 1#1 ↔ a = 1#1 ∧ b = 1#1 := by decide

/-- A category id in its range: signed-nonnegative and signed-below 32. -/
def InRange (w : BitVec 32) : Prop := IntOp.cmpi .sge w 0#32 = 1#1 ∧ IntOp.cmpi .slt w 32#32 = 1#1

/-- Unfolded: the signed value lies in [0, 32). -/
theorem InRange.toInt {w : BitVec 32} (h : InRange w) : 0 ≤ w.toInt ∧ w.toInt < 32 := by
  obtain ⟨h0, h1⟩ := h
  unfold IntOp.cmpi at h0 h1
  rw [ofBool_eq_one] at h0 h1
  simp only [BitVec.slt, BitVec.sle, decide_eq_true_eq] at h0 h1
  have e0 : (0#32 : BitVec 32).toInt = 0 := by decide
  have e32 : (32#32 : BitVec 32).toInt = 32 := by decide
  rw [e0] at h0; rw [e32] at h1
  exact ⟨h0, h1⟩

/-- Such a word is below 32 as a natural number. -/
theorem InRange.toNat_lt {w : BitVec 32} (h : InRange w) : w.toNat < 32 := by
  have ⟨h0, h1⟩ := h.toInt
  have h32 := w.isLt
  rw [BitVec.toInt_eq_toNat_cond] at h0 h1
  split at h0 <;> omega

/-- Its signed value, as a natural number, is its unsigned one. -/
theorem InRange.toInt_toNat {w : BitVec 32} (h : InRange w) : w.toInt.toNat = w.toNat := by
  have hlt := h.toNat_lt
  rw [BitVec.toInt_eq_toNat_cond, if_pos (by omega)]
  exact Int.toNat_natCast _

/-- It is not signed-below zero. -/
theorem InRange.not_neg {w : BitVec 32} (h : InRange w) : ¬ (IntOp.cmpi .slt w 0#32 = 1#1) := by
  intro h'
  unfold IntOp.cmpi at h'
  rw [ofBool_eq_one] at h'
  simp only [BitVec.slt, decide_eq_true_eq] at h'
  have e0 : (0#32 : BitVec 32).toInt = 0 := by decide
  rw [e0] at h'
  have := h.toInt.1
  omega

/-- A signed clip into [0, 31] leaves it. -/
theorem InRange.clip {w : BitVec 32} (h : InRange w) : IntOp.minsi 31#32 (IntOp.maxsi 0#32 w) = w := by
  have ⟨h0, h1⟩ := h.toInt
  have e0 : (0#32 : BitVec 32).toInt = 0 := by decide
  have e31 : (31#32 : BitVec 32).toInt = 31 := by decide
  have hmax : IntOp.maxsi 0#32 w = w := by
    unfold IntOp.maxsi
    by_cases hw : w.slt 0#32 = true
    · simp only [BitVec.slt, decide_eq_true_eq] at hw
      rw [e0] at hw; omega
    · rw [if_neg hw]
  rw [hmax]
  unfold IntOp.minsi
  by_cases hw : (31#32 : BitVec 32).slt w = true
  · rw [if_pos hw]
    simp only [BitVec.slt, decide_eq_true_eq] at hw
    rw [e31] at hw
    apply BitVec.eq_of_toInt_eq
    rw [e31]; omega
  · rw [if_neg hw]

/-- A select "negative ids wrap by 32" leaves it. -/
theorem InRange.wrap {w : BitVec 32} (h : InRange w) :
    Scalar.select (IntOp.cmpi .slt w 0#32) (IntOp.addi w 32#32) w = w := if_neg h.not_neg

/-! ## Shapes and the function -/

abbrev SX : Shape := ⟨3, ![64, 512, 1024]⟩
abbrev SIds : Shape := ⟨1, ![64]⟩
abbrev SW : Shape := ⟨3, ![32, 1024, 4096]⟩
abbrev SB : Shape := ⟨2, ![32, 4096]⟩
abbrev SO : Shape := ⟨3, ![64, 512, 4096]⟩

/-- The category sample `j` selects: its id as a natural number, capped at 31 so that the function is total
    (an id in range is below 32: the cap leaves it). -/
def cat (ids : IVec SIds 32) (j : Fin 64) : Fin 32 := ⟨min (ids (ix1 j)).toNat 31, by omega⟩

theorem cat_val {ids : IVec SIds 32} {j : Fin 64} (h : InRange (ids (ix1 j))) : (cat ids j).val = (ids (ix1 j)).toNat := by
  show min _ 31 = _
  have := h.toNat_lt
  omega

/-- THE RESULT: each sample's rows times its category's matrix, plus its category's bias row. -/
def out (x : SX.Idx → EReal) (ids : IVec SIds 32) (W : SW.Idx → EReal) (b : SB.Idx → EReal) : SO.Idx → EReal :=
  fun i => (∑ k : Fin 1024, x (ix3 (i 0) (i 1) k) * W (ix3 (cat ids (i 0)) k (i 2))) + b (ix2 (cat ids (i 0)) (i 2))

theorem out_apply (x : SX.Idx → EReal) (ids : IVec SIds 32) (W : SW.Idx → EReal) (b : SB.Idx → EReal)
    (j : Fin 64) (s : Fin 512) (h : Fin 4096) :
    out x ids W b (ix3 j s h) = (∑ k : Fin 1024, x (ix3 j s k) * W (ix3 (cat ids j) k h)) + b (ix2 (cat ids j) h) := rfl

end Cert.CategoryLinear

end
-- ==== Proof.IdsInRange.lean ====
/-
  The precondition read at one sample: every category id is in its range.

  The printed precondition is a conjunction of four whole-array tests; its last conjunct is the "and" over all
  64 samples of (id ≥ 0 signed) ∧ (id < 32 signed).  An "and" over every index that comes out 1 is 1 at each index.
-/
import proofs.«427871_j82592221102548_3_alg».proof.Pre_finite_inputs
import proofs.«427871_j82592221102548_3_alg».proof.Proof.Gen.Pre_finite_inputs
import proofs.«427871_j82592221102548_3_alg».proof.Proof.CategoryLinear
import Idealize.ShloMosaic.Lib.ReduceAll

noncomputable section

namespace Cert.CategoryLinear

open Idealize.ShloMosaic Idealize.ShloMosaic.ValueIdx

/-- Under the precondition, sample `j`'s category id is in range. -/
theorem ids_inRange {F : FTy → Type} [FloatOps F]
    (x : FVec F Cert.Pre_finite_inputs.S64x512x1024 .f32) (ids : IVec Cert.Pre_finite_inputs.S64 32)
    (W : FVec F Cert.Pre_finite_inputs.S32x1024x4096 .f32) (b : FVec F Cert.Pre_finite_inputs.S32x4096 .f32)
    (h : Cert.Pre_finite_inputs.fn (F := F) x ids W b = fun _ => 1#1) (j : Fin 64) : InRange (ids (ix1 j)) := by
  -- the result of a reduction over every axis has exactly one index
  haveI : Subsingleton Cert.Pre_finite_inputs.S_.Idx := ⟨fun _ _ => funext fun d => d.elim0⟩
  -- the precondition at that one index, written out as its chain of operations
  have e := congrFun h ValueIdx.ix0
  unfold Cert.Pre_finite_inputs.fn Cert.Pre_finite_inputs.fn_part1 at e
  dsimp only at e
  -- its last conjunct: the "and" over all 64 samples of the two range tests
  have eAll := ((and1 _ _).1 e).2
  -- an "and" over every sample that is 1 is 1 at sample j
  have ej := Host.reduce_andi_all _ _ _ _ _ eAll (ix1 j)
  -- at sample j the test is (id ≥ 0) ∧ (id < 32), both signed
  exact (and1 _ _).1 ej

end Cert.CategoryLinear

end
-- ==== Proof.TablesBits.lean ====
/-
  The two prefetched tables of the kernel's launch, as functions of the category ids.

  Table 0 is the argsort of the clipped ids: a stable sort of (clipped id, position) pairs, read at its second
  component, so entry t is the position a permutation of 0 … 63 sends t to.  Table 1 is the clipped ids gathered
  at table 0: entry t is the clipped id of sample table0[t].  With every id in range the clip leaves the ids, so
  table 1 is the ids read through table 0.  Every entry of table 0 is below 64 and every entry of table 1 below
  32: each window's block lies inside its array.
-/
import proofs.«427871_j82592221102548_3_alg».proof.Defs
import proofs.«427871_j82592221102548_3_alg».proof.Proof.Gen.Kernel.Frame
import proofs.«427871_j82592221102548_3_alg».proof.Proof.CategoryLinear
import Idealize.ShloMosaic.Lib.SortFacts
import Idealize.ShloMosaic.Lib.StableHlo.Run
import Idealize.ShloMosaic.Lib.StableHlo.Predicate

set_option maxRecDepth 16384

noncomputable section

namespace Cert.Kernel.Tables

open Cert.Kernel Cert.Kernel.Gen
open Idealize.ShloMosaic Idealize.ShloMosaic.TcCoe Idealize.SL.Sem Idealize.ShloMosaic.ValueIdx Cert.CategoryLinear

variable {F : FTy → Type} [FloatOps F] (m : (ℓ : Loc nD τ sig) → Buf (Elt F) ℓ)

/-- The category ids the launch memory holds (the program runs on one device). -/
abbrev ids : IVec S64 32 := m (((0 : Dev nD) : Thread nD τ).loc main_arg1)

/-- The ids clipped into 0 … 31. -/
def clipped (c : IVec S64 32) : IVec S64 32 :=
  minsi (broadcastInDim S64 ![] bcast_S_S64 (constantI S_ 32 31#32)) (maxsi (broadcastInDim S64 ![] bcast_S_S64 (constantI S_ 32 0#32)) c)

/-- The column of start indices the gather reads: each word of p, with 64 added where it is signed-negative. -/
def startCol (p : IVec S64 32) : IVec S64x1 32 :=
  broadcastInDim S64x1 ![0] bcast_S64_S64x1_0
    (select (cmpi .slt p (broadcastInDim S64 ![] bcast_S_S64 (constantI S_ 32 0#32)))
      (addi p (broadcastInDim S64 ![] bcast_S_S64 (constantI S_ 32 64#32))) p)

/-- Table 0 as @main computes it: the second component of the stable sort of (clipped id, position) pairs. -/
theorem tbl0_eq : (tbl m 0 : S64.Idx → BitVec 32) = (Host.sort2 S64 0 comparator_i32_i32_d0 (clipped (ids m)) (iotaInDim S64 32 0)).2 := by
  unfold tbl
  show (V m 0 main_v1 : S64.Idx → BitVec 32) = _
  unfold V
  simp only [hostOps0, hostOps0_1, hostOps0_2, hostOps0_3, List.flatten_cons, List.flatten_nil, List.append_nil, List.cons_append, List.nil_append]
  after_results
  rfl

set_option maxHeartbeats 400000 in
/-- Table 1 as @main computes it: the clipped ids gathered at the start column made of the sort's second component. -/
theorem tbl1_eq_sort : (tbl m 1 : S64.Idx → BitVec 32) = Host.gather gather_S64_S64x1_S64_n_0_n_n_0_1_1 (clipped (ids m))
    (startCol (Host.sort2 S64 0 comparator_i32_i32_d0 (clipped (ids m)) (iotaInDim S64 32 0)).2) := by
  unfold tbl
  show (V m 0 main_v8 : S64.Idx → BitVec 32) = _
  unfold V
  simp only [hostOps0, hostOps0_1, hostOps0_2, hostOps0_3, List.flatten_cons, List.flatten_nil, List.append_nil, List.cons_append, List.nil_append]
  after_results
  rfl

/-- Table 1 is the clipped ids gathered at the start column made of table 0. -/
theorem tbl1_eq : (tbl m 1 : S64.Idx → BitVec 32) = Host.gather gather_S64_S64x1_S64_n_0_n_n_0_1_1 (clipped (ids m)) (startCol (tbl m 0)) :=
  (tbl1_eq_sort m).trans (congrArg (fun p => Host.gather gather_S64_S64x1_S64_n_0_n_n_0_1_1 (clipped (ids m)) (startCol p)) (tbl0_eq m).symm)

/-- A rank-1 sort of two operands, read at its second component: the carried array through the one self-map of the
    positions, the stable sort of the (key, carried) pairs by the comparator. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The sort's map of positions for the key array c: sorted position t holds sample pos c t. -/
def pos (c : IVec S64 32) : Fin 64 → Fin 64 :=
  sortedFrom (fun k k' => comparator_i32_i32_d0 (c (Shape.Idx.ofFin k), iotaInDim S64 32 0 (Shape.Idx.ofFin k))
    (c (Shape.Idx.ofFin k'), iotaInDim S64 32 0 (Shape.Idx.ofFin k')) == 1#1)

/-- Every sample is some sorted position's. -/
theorem pos_surj (c : IVec S64 32) : Function.Surjective (pos c) := sortedFrom_surjective _

/-- The carried positions, sorted: entry j is the word of pos c (j 0). -/
theorem sorted_snd (c : IVec S64 32) (j : S64.Idx) :
    (Host.sort2 S64 0 comparator_i32_i32_d0 c (iotaInDim S64 32 0)).2 j = BitVec.ofNat 32 (pos c (j 0)).val :=
  by
  refine (sort2_snd_rank1 comparator_i32_i32_d0 c (iotaInDim S64 32 0) j).trans ?_
  unfold pos
  exact StableHlo.Predicate.iota_apply _

attribute [irreducible] pos

/-- Table 0 at j is the word of the sample the sort puts at position j. -/
theorem tbl0_apply (j : S64.Idx) : tbl m 0 j = BitVec.ofNat 32 (pos (clipped (ids m)) (j 0)).val :=
  (congrFun (tbl0_eq m) j).trans (sorted_snd _ j)

/-- The word of a number below 64 is that number. -/
theorem toNat_ofNat_lt64 (p : Fin 64) : (BitVec.ofNat 32 p.val).toNat = p.val := by
  have := p.isLt
  simp only [BitVec.toNat_ofNat]; omega

/-- Table 0 at j, as a number, is the sample the sort puts at position j. -/
theorem tbl0_toNat (j : S64.Idx) : (tbl m 0 j).toNat = (pos (clipped (ids m)) (j 0)).val :=
  (congrArg BitVec.toNat (tbl0_apply m j)).trans (toNat_ofNat_lt64 _)

/-- Every entry of table 0 names a sample. -/
theorem perm_lt (i : S64.Idx) : (tbl m 0 i).toNat < 64 := by
  rw [tbl0_toNat]; exact (pos _ _).isLt

/-- Every sample is named by some entry of table 0. -/
theorem perm_surj (j : Fin 64) : ∃ t : Fin 64, (tbl m 0 (ix1 t)).toNat = j.val := by
  obtain ⟨t, ht⟩ := pos_surj (clipped (ids m)) j
  exact ⟨t, (tbl0_toNat m (ix1 t)).trans (congrArg Fin.val ht)⟩

/-- A rank-1 index from its coordinate, in the two spellings. -/
theorem ix1_eq_ofFin {n : Nat} (t : Fin n) : (ix1 t : (⟨1, ![n]⟩ : Shape).Idx) = Shape.Idx.ofFin t := by
  funext a
  have ha : a = 0 := Subsingleton.elim _ _
  subst ha
  exact Fin.ext rfl

/-- A word below 64 is not signed-negative, so the select "negative wraps by 64" leaves it. -/
theorem wrap64 {w : BitVec 32} (hw : w.toNat < 64) :
    Scalar.select (IntOp.cmpi .slt w 0#32) (IntOp.addi w 64#32) w = w := by
  have hneg : ¬ (IntOp.cmpi .slt w 0#32 = 1#1) := ?_
  · exact if_neg hneg
  intro h'
  unfold IntOp.cmpi at h'
  rw [ofBool_eq_one] at h'
  simp only [BitVec.slt, decide_eq_true_eq] at h'
  have e0 : (0#32 : BitVec 32).toInt = 0 := by decide
  rw [e0, BitVec.toInt_eq_toNat_cond, if_pos (by omega)] at h'
  omega

/-- The signed value of a word below 64, as a natural number, is its unsigned one. -/
theorem toInt_toNat64 {w : BitVec 32} (hw : w.toNat < 64) : w.toInt.toNat = w.toNat := by
  rw [BitVec.toInt_eq_toNat_cond, if_pos (by omega)]
  exact Int.toNat_natCast _

/-- The start column at row t: p's word at t through the select. -/
theorem startCol_apply (p : IVec S64 32) (t : Fin 64) :
    startCol p (StableHlo.Predicate.ixP t)
      = Scalar.select (IntOp.cmpi .slt (p (Shape.Idx.ofFin t)) 0#32) (IntOp.addi (p (Shape.Idx.ofFin t)) 64#32) (p (Shape.Idx.ofFin t)) :=
  StableHlo.Predicate.bcast_col1 bcast_S64_S64x1_0 _ t

/-- The gather at t through the start column made of p, where p's word at t is below 64: c at that word. -/
theorem gather_startCol (c p : IVec S64 32) (t : Fin 64) (hp : (p (Shape.Idx.ofFin t)).toNat < 64) :
    Host.gather gather_S64_S64x1_S64_n_0_n_n_0_1_1 c (startCol p) (Shape.Idx.ofFin t)
      = c (Shape.Idx.ofFin ⟨(p (Shape.Idx.ofFin t)).toNat, hp⟩) := by
  refine (StableHlo.Predicate.gather_take gather_S64_S64x1_S64_n_0_n_n_0_1_1 rfl rfl rfl rfl c (startCol p) t (by decide)).trans ?_
  refine congrArg (fun q => c (Shape.Idx.ofFin q)) (Fin.ext ?_)
  show min (startCol p (StableHlo.Predicate.ixP t)).toInt.toNat (64 - 1) = (p (Shape.Idx.ofFin t)).toNat
  rw [startCol_apply, wrap64 hp, toInt_toNat64 hp]
  omega

/-- Where every id is in range the clip leaves it. -/
theorem clipped_inRange (c : IVec S64 32) (h : ∀ j : Fin 64, InRange (c (ix1 j))) (q : Fin 64) :
    clipped c (Shape.Idx.ofFin q) = c (ix1 q) := by
  rw [← ix1_eq_ofFin q]
  exact InRange.clip (h q)

/-- Table 1 at an index j that is position t, read through table 0's word there. -/
theorem sorted_cat_at (h : ∀ j : Fin 64, InRange (ids m (ix1 j))) (t : Fin 64) (j : S64.Idx) (e : j = Shape.Idx.ofFin t)
    (hp : (tbl m 0 j).toNat < 64) : tbl m 1 j = ids m (ix1 ⟨(tbl m 0 j).toNat, hp⟩) := by
  subst e
  refine (congrFun (tbl1_eq m) _).trans ?_
  refine (gather_startCol (clipped (ids m)) (tbl m 0) t hp).trans ?_
  exact clipped_inRange (ids m) h _

/-- With the ids in range, table 1 at t is the id of the sample table 0 names at t. -/
theorem sorted_cat (h : ∀ j : Fin 64, InRange (ids m (ix1 j))) (t : Fin 64) :
    tbl m 1 (ix1 t) = ids m (ix1 ⟨(tbl m 0 (ix1 t)).toNat, perm_lt m _⟩) :=
  sorted_cat_at m h t (ix1 t) (ix1_eq_ofFin t) (perm_lt m _)

/-- With the ids in range, every entry of table 1 names a category. -/
theorem cat_lt (h : ∀ j : Fin 64, InRange (ids m (ix1 j))) (x : S64.Idx) : (tbl m 1 x).toNat < 32 := by
  have key : ∀ t : Fin 64, (tbl m 1 (ix1 t)).toNat < 32 := fun t =>
    lt_of_eq_of_lt (congrArg BitVec.toNat (sorted_cat m h t)) (h _).toNat_lt
  exact Eq.mpr (congrArg (fun y => (tbl m 1 y).toNat < 32) (eq_ix1 x)) (key (x 0))

/-- Tables whose first holds words below 64 and whose second holds words below 32 put every window's block inside
    its array: the sample axis has extent 64, the category axis 32, and the row blocks are 4 of 128 rows in 512. -/
theorem ok0_of_lt (pf : pre0.Contents (Elt F)) (h0 : ∀ x : S64.Idx, (pf 0 x : BitVec 32).toNat < 64)
    (h1 : ∀ x : S64.Idx, (pf 1 x : BitVec 32).toNat < 32) : ok0 pf := by
  refine ⟨fun i => ?_, fun i => ?_, fun i => ?_, fun i => ?_⟩
  · obtain ⟨w, hw, e⟩ : ∃ w : BitVec 32, w.toNat < 64 ∧
        cc0_transform_0 k0_off1_inb numel1_S1 pf i = ![w.toNat, (BitVec.ofNat 32 (i 1).val).toNat, 0] := ⟨_, h0 _, rfl⟩
    have hi : (i 1).val < 4 := (i 1).isLt
    refine ⟨fun a => ?_, Or.inl rfl⟩
    rw [e]
    fin_cases a <;> simp [S1x128x1024, S64x512x1024] <;> omega
  · obtain ⟨w, hw, e⟩ : ∃ w : BitVec 32, w.toNat < 32 ∧
        cc0_transform_1 k0_off1_inb numel1_S1 pf i = ![w.toNat, 0, 0] := ⟨_, h1 _, rfl⟩
    refine ⟨fun a => ?_, Or.inl rfl⟩
    rw [e]
    fin_cases a <;> simp [S1x1024x4096, S32x1024x4096] <;> omega
  · obtain ⟨w, hw, e⟩ : ∃ w : BitVec 32, w.toNat < 32 ∧
        cc0_transform_2 k0_off1_inb numel1_S1 pf i = ![w.toNat, 0, 0] := ⟨_, h1 _, rfl⟩
    refine ⟨fun a => ?_, Or.inl rfl⟩
    rw [e]
    fin_cases a <;> simp [S1x1x4096, S32x1x4096] <;> omega
  · obtain ⟨w, hw, e⟩ : ∃ w : BitVec 32, w.toNat < 64 ∧
        cc0_transform_3 k0_off1_inb numel1_S1 pf i = ![w.toNat, (BitVec.ofNat 32 (i 1).val).toNat, 0] := ⟨_, h0 _, rfl⟩
    have hi : (i 1).val < 4 := (i 1).isLt
    refine ⟨fun a => ?_, Or.inl rfl⟩
    rw [e]
    fin_cases a <;> simp [S1x128x4096, S64x512x4096] <;> omega

/-- With the ids in range, every window's block lies inside its array at every grid point. -/
theorem ok_of_inRange (h : ∀ j : Fin 64, InRange (ids m (ix1 j))) : Ok m :=
  ok0_of_lt (tbl m) (perm_lt m) (cat_lt m h)

end Cert.Kernel.Tables

end
-- ==== Proof.TablesIdeal.lean ====
/-
  The two prefetched tables of the kernel's launch, as functions of the category ids.

  Table 0 is the argsort of the clipped ids: a stable sort of (clipped id, position) pairs, read at its second
  component, so entry t is the position a permutation of 0 … 63 sends t to.  Table 1 is the clipped ids gathered
  at table 0: entry t is the clipped id of sample table0[t].  With every id in range the clip leaves the ids, so
  table 1 is the ids read through table 0.  Every entry of table 0 is below 64 and every entry of table 1 below
  32: each window's block lies inside its array.
-/
import proofs.«427871_j82592221102548_3_alg».proof.Defs
import proofs.«427871_j82592221102548_3_alg».proof.Proof.Gen.KernelIdeal.Frame
import proofs.«427871_j82592221102548_3_alg».proof.Proof.CategoryLinear
import Idealize.ShloMosaic.Lib.SortFacts
import Idealize.ShloMosaic.Lib.StableHlo.Run
import Idealize.ShloMosaic.Lib.StableHlo.Predicate

set_option maxRecDepth 16384

noncomputable section

namespace Cert.KernelIdeal.Tables

open Cert.KernelIdeal Cert.KernelIdeal.Gen
open Idealize.ShloMosaic Idealize.ShloMosaic.TcCoe Idealize.SL.Sem Idealize.ShloMosaic.ValueIdx Cert.CategoryLinear

variable {F : FTy → Type} [FloatOps F] (m : (ℓ : Loc nD τ sig) → Buf (Elt F) ℓ)

/-- The category ids the launch memory holds (the program runs on one device). -/
abbrev ids : IVec S64 32 := m (((0 : Dev nD) : Thread nD τ).loc main_arg1)

/-- The ids clipped into 0 … 31. -/
def clipped (c : IVec S64 32) : IVec S64 32 :=
  minsi (broadcastInDim S64 ![] bcast_S_S64 (constantI S_ 32 31#32)) (maxsi (broadcastInDim S64 ![] bcast_S_S64 (constantI S_ 32 0#32)) c)

/-- The column of start indices the gather reads: each word of p, with 64 added where it is signed-negative. -/
def startCol (p : IVec S64 32) : IVec S64x1 32 :=
  broadcastInDim S64x1 ![0] bcast_S64_S64x1_0
    (select (cmpi .slt p (broadcastInDim S64 ![] bcast_S_S64 (constantI S_ 32 0#32)))
      (addi p (broadcastInDim S64 ![] bcast_S_S64 (constantI S_ 32 64#32))) p)

/-- Table 0 as @main computes it: the second component of the stable sort of (clipped id, position) pairs. -/
theorem tbl0_eq : (tbl m 0 : S64.Idx → BitVec 32) = (Host.sort2 S64 0 comparator_i32_i32_d0 (clipped (ids m)) (iotaInDim S64 32 0)).2 := by
  unfold tbl
  show (V m 0 main_v1 : S64.Idx → BitVec 32) = _
  unfold V
  simp only [hostOps0, hostOps0_1, hostOps0_2, hostOps0_3, List.flatten_cons, List.flatten_nil, List.append_nil, List.cons_append, List.nil_append]
  after_results
  rfl

set_option maxHeartbeats 400000 in
/-- Table 1 as @main computes it: the clipped ids gathered at the start column made of the sort's second component. -/
theorem tbl1_eq_sort : (tbl m 1 : S64.Idx → BitVec 32) = Host.gather gather_S64_S64x1_S64_n_0_n_n_0_1_1 (clipped (ids m))
    (startCol (Host.sort2 S64 0 comparator_i32_i32_d0 (clipped (ids m)) (iotaInDim S64 32 0)).2) := by
  unfold tbl
  show (V m 0 main_v8 : S64.Idx → BitVec 32) = _
  unfold V
  simp only [hostOps0, hostOps0_1, hostOps0_2, hostOps0_3, List.flatten_cons, List.flatten_nil, List.append_nil, List.cons_append, List.nil_append]
  after_results
  rfl

/-- Table 1 is the clipped ids gathered at the start column made of table 0. -/
theorem tbl1_eq : (tbl m 1 : S64.Idx → BitVec 32) = Host.gather gather_S64_S64x1_S64_n_0_n_n_0_1_1 (clipped (ids m)) (startCol (tbl m 0)) :=
  (tbl1_eq_sort m).trans (congrArg (fun p => Host.gather gather_S64_S64x1_S64_n_0_n_n_0_1_1 (clipped (ids m)) (startCol p)) (tbl0_eq m).symm)

/-- A rank-1 sort of two operands, read at its second component: the carried array through the one self-map of the
    positions, the stable sort of the (key, carried) pairs by the comparator. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The sort's map of positions for the key array c: sorted position t holds sample pos c t. -/
def pos (c : IVec S64 32) : Fin 64 → Fin 64 :=
  sortedFrom (fun k k' => comparator_i32_i32_d0 (c (Shape.Idx.ofFin k), iotaInDim S64 32 0 (Shape.Idx.ofFin k))
    (c (Shape.Idx.ofFin k'), iotaInDim S64 32 0 (Shape.Idx.ofFin k')) == 1#1)

/-- Every sample is some sorted position's. -/
theorem pos_surj (c : IVec S64 32) : Function.Surjective (pos c) := sortedFrom_surjective _

/-- The carried positions, sorted: entry j is the word of pos c (j 0). -/
theorem sorted_snd (c : IVec S64 32) (j : S64.Idx) :
    (Host.sort2 S64 0 comparator_i32_i32_d0 c (iotaInDim S64 32 0)).2 j = BitVec.ofNat 32 (pos c (j 0)).val :=
  by
  refine (sort2_snd_rank1 comparator_i32_i32_d0 c (iotaInDim S64 32 0) j).trans ?_
  unfold pos
  exact StableHlo.Predicate.iota_apply _

attribute [irreducible] pos

/-- Table 0 at j is the word of the sample the sort puts at position j. -/
theorem tbl0_apply (j : S64.Idx) : tbl m 0 j = BitVec.ofNat 32 (pos (clipped (ids m)) (j 0)).val :=
  (congrFun (tbl0_eq m) j).trans (sorted_snd _ j)

/-- The word of a number below 64 is that number. -/
theorem toNat_ofNat_lt64 (p : Fin 64) : (BitVec.ofNat 32 p.val).toNat = p.val := by
  have := p.isLt
  simp only [BitVec.toNat_ofNat]; omega

/-- Table 0 at j, as a number, is the sample the sort puts at position j. -/
theorem tbl0_toNat (j : S64.Idx) : (tbl m 0 j).toNat = (pos (clipped (ids m)) (j 0)).val :=
  (congrArg BitVec.toNat (tbl0_apply m j)).trans (toNat_ofNat_lt64 _)

/-- Every entry of table 0 names a sample. -/
theorem perm_lt (i : S64.Idx) : (tbl m 0 i).toNat < 64 := by
  rw [tbl0_toNat]; exact (pos _ _).isLt

/-- Every sample is named by some entry of table 0. -/
theorem perm_surj (j : Fin 64) : ∃ t : Fin 64, (tbl m 0 (ix1 t)).toNat = j.val := by
  obtain ⟨t, ht⟩ := pos_surj (clipped (ids m)) j
  exact ⟨t, (tbl0_toNat m (ix1 t)).trans (congrArg Fin.val ht)⟩

/-- A rank-1 index from its coordinate, in the two spellings. -/
theorem ix1_eq_ofFin {n : Nat} (t : Fin n) : (ix1 t : (⟨1, ![n]⟩ : Shape).Idx) = Shape.Idx.ofFin t := by
  funext a
  have ha : a = 0 := Subsingleton.elim _ _
  subst ha
  exact Fin.ext rfl

/-- A word below 64 is not signed-negative, so the select "negative wraps by 64" leaves it. -/
theorem wrap64 {w : BitVec 32} (hw : w.toNat < 64) :
    Scalar.select (IntOp.cmpi .slt w 0#32) (IntOp.addi w 64#32) w = w := by
  have hneg : ¬ (IntOp.cmpi .slt w 0#32 = 1#1) := ?_
  · exact if_neg hneg
  intro h'
  unfold IntOp.cmpi at h'
  rw [ofBool_eq_one] at h'
  simp only [BitVec.slt, decide_eq_true_eq] at h'
  have e0 : (0#32 : BitVec 32).toInt = 0 := by decide
  rw [e0, BitVec.toInt_eq_toNat_cond, if_pos (by omega)] at h'
  omega

/-- The signed value of a word below 64, as a natural number, is its unsigned one. -/
theorem toInt_toNat64 {w : BitVec 32} (hw : w.toNat < 64) : w.toInt.toNat = w.toNat := by
  rw [BitVec.toInt_eq_toNat_cond, if_pos (by omega)]
  exact Int.toNat_natCast _

/-- The start column at row t: p's word at t through the select. -/
theorem startCol_apply (p : IVec S64 32) (t : Fin 64) :
    startCol p (StableHlo.Predicate.ixP t)
      = Scalar.select (IntOp.cmpi .slt (p (Shape.Idx.ofFin t)) 0#32) (IntOp.addi (p (Shape.Idx.ofFin t)) 64#32) (p (Shape.Idx.ofFin t)) :=
  StableHlo.Predicate.bcast_col1 bcast_S64_S64x1_0 _ t

/-- The gather at t through the start column made of p, where p's word at t is below 64: c at that word. -/
theorem gather_startCol (c p : IVec S64 32) (t : Fin 64) (hp : (p (Shape.Idx.ofFin t)).toNat < 64) :
    Host.gather gather_S64_S64x1_S64_n_0_n_n_0_1_1 c (startCol p) (Shape.Idx.ofFin t)
      = c (Shape.Idx.ofFin ⟨(p (Shape.Idx.ofFin t)).toNat, hp⟩) := by
  refine (StableHlo.Predicate.gather_take gather_S64_S64x1_S64_n_0_n_n_0_1_1 rfl rfl rfl rfl c (startCol p) t (by decide)).trans ?_
  refine congrArg (fun q => c (Shape.Idx.ofFin q)) (Fin.ext ?_)
  show min (startCol p (StableHlo.Predicate.ixP t)).toInt.toNat (64 - 1) = (p (Shape.Idx.ofFin t)).toNat
  rw [startCol_apply, wrap64 hp, toInt_toNat64 hp]
  omega

/-- Where every id is in range the clip leaves it. -/
theorem clipped_inRange (c : IVec S64 32) (h : ∀ j : Fin 64, InRange (c (ix1 j))) (q : Fin 64) :
    clipped c (Shape.Idx.ofFin q) = c (ix1 q) := by
  rw [← ix1_eq_ofFin q]
  exact InRange.clip (h q)

/-- Table 1 at an index j that is position t, read through table 0's word there. -/
theorem sorted_cat_at (h : ∀ j : Fin 64, InRange (ids m (ix1 j))) (t : Fin 64) (j : S64.Idx) (e : j = Shape.Idx.ofFin t)
    (hp : (tbl m 0 j).toNat < 64) : tbl m 1 j = ids m (ix1 ⟨(tbl m 0 j).toNat, hp⟩) := by
  subst e
  refine (congrFun (tbl1_eq m) _).trans ?_
  refine (gather_startCol (clipped (ids m)) (tbl m 0) t hp).trans ?_
  exact clipped_inRange (ids m) h _

/-- With the ids in range, table 1 at t is the id of the sample table 0 names at t. -/
theorem sorted_cat (h : ∀ j : Fin 64, InRange (ids m (ix1 j))) (t : Fin 64) :
    tbl m 1 (ix1 t) = ids m (ix1 ⟨(tbl m 0 (ix1 t)).toNat, perm_lt m _⟩) :=
  sorted_cat_at m h t (ix1 t) (ix1_eq_ofFin t) (perm_lt m _)

/-- With the ids in range, every entry of table 1 names a category. -/
theorem cat_lt (h : ∀ j : Fin 64, InRange (ids m (ix1 j))) (x : S64.Idx) : (tbl m 1 x).toNat < 32 := by
  have key : ∀ t : Fin 64, (tbl m 1 (ix1 t)).toNat < 32 := fun t =>
    lt_of_eq_of_lt (congrArg BitVec.toNat (sorted_cat m h t)) (h _).toNat_lt
  exact Eq.mpr (congrArg (fun y => (tbl m 1 y).toNat < 32) (eq_ix1 x)) (key (x 0))

/-- Tables whose first holds words below 64 and whose second holds words below 32 put every window's block inside
    its array: the sample axis has extent 64, the category axis 32, and the row blocks are 4 of 128 rows in 512. -/
theorem ok0_of_lt (pf : pre0.Contents (Elt F)) (h0 : ∀ x : S64.Idx, (pf 0 x : BitVec 32).toNat < 64)
    (h1 : ∀ x : S64.Idx, (pf 1 x : BitVec 32).toNat < 32) : ok0 pf := by
  refine ⟨fun i => ?_, fun i => ?_, fun i => ?_, fun i => ?_⟩
  · obtain ⟨w, hw, e⟩ : ∃ w : BitVec 32, w.toNat < 64 ∧
        cc0_transform_0 k0_off1_inb numel1_S1 pf i = ![w.toNat, (BitVec.ofNat 32 (i 1).val).toNat, 0] := ⟨_, h0 _, rfl⟩
    have hi : (i 1).val < 4 := (i 1).isLt
    refine ⟨fun a => ?_, Or.inl rfl⟩
    rw [e]
    fin_cases a <;> simp [S1x128x1024, S64x512x1024] <;> omega
  · obtain ⟨w, hw, e⟩ : ∃ w : BitVec 32, w.toNat < 32 ∧
        cc0_transform_1 k0_off1_inb numel1_S1 pf i = ![w.toNat, 0, 0] := ⟨_, h1 _, rfl⟩
    refine ⟨fun a => ?_, Or.inl rfl⟩
    rw [e]
    fin_cases a <;> simp [S1x1024x4096, S32x1024x4096] <;> omega
  · obtain ⟨w, hw, e⟩ : ∃ w : BitVec 32, w.toNat < 32 ∧
        cc0_transform_2 k0_off1_inb numel1_S1 pf i = ![w.toNat, 0, 0] := ⟨_, h1 _, rfl⟩
    refine ⟨fun a => ?_, Or.inl rfl⟩
    rw [e]
    fin_cases a <;> simp [S1x1x4096, S32x1x4096] <;> omega
  · obtain ⟨w, hw, e⟩ : ∃ w : BitVec 32, w.toNat < 64 ∧
        cc0_transform_3 k0_off1_inb numel1_S1 pf i = ![w.toNat, (BitVec.ofNat 32 (i 1).val).toNat, 0] := ⟨_, h0 _, rfl⟩
    have hi : (i 1).val < 4 := (i 1).isLt
    refine ⟨fun a => ?_, Or.inl rfl⟩
    rw [e]
    fin_cases a <;> simp [S1x128x4096, S64x512x4096] <;> omega

/-- With the ids in range, every window's block lies inside its array at every grid point. -/
theorem ok_of_inRange (h : ∀ j : Fin 64, InRange (ids m (ix1 j))) : Ok m :=
  ok0_of_lt (tbl m) (perm_lt m) (cat_lt m h)

end Cert.KernelIdeal.Tables

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«427871_j82592221102548_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.BodyValue.lean ====
/-
  What the kernel's body stores, read at one entry.

  At a grid point the body holds a [1,128,1024] block of x, a [1,1024,4096] block of W and a [1,1,4096] block of the
  bias.  It drops the unit axes, multiplies the 128 x 1024 rows by the 1024 x 4096 matrix into a zero accumulator
  (on the extended reals the narrowing of both operands is the identity, so entry (r, q) is the sum over k of
  row (r, k) times matrix (k, q)), adds the bias row laid along the 128 rows, and stores the 128 x 4096 result
  back under a unit axis.  So entry (0, r, q) of what is stored is
      (∑ k, xblk (0, r, k) · wblk (0, k, q)) + bblk (0, 0, q).
  The body's one store covers its whole output block, and each of its three loads reads a whole input block, so what
  the run leaves in the output block is that stored value of the three input blocks.
-/
import proofs.«427871_j82592221102548_3_alg».proof.Defs
import proofs.«427871_j82592221102548_3_alg».proof.Proof.Gen.KernelIdeal.Frame
import proofs.«427871_j82592221102548_3_alg».proof.Proof.LibPlainAny
import Idealize.ShloMosaic.Lib.Pipeline.Value
import Idealize.ShloMosaic.Lib.ValueIdx

set_option maxRecDepth 16384

noncomputable section

namespace Cert.KernelIdeal.BodyValue

open Cert.KernelIdeal Cert.KernelIdeal.Gen
open Idealize.ShloMosaic Idealize.ShloMosaic.TcCoe Idealize.ShloMosaic.Tactic Idealize.SL.Sem Idealize.ShloMosaic.ValueIdx

/-- The zero offsets of a whole-block rectangle of rank 3. -/
theorem hz3 : (![0, 0, 0] : Fin 3 → Nat) = fun _ => 0 := funext fun a => by fin_cases a <;> rfl

/-- A row broadcast over the rows reads, at (a, j), the row's entry of column j. -/
theorem broadcast_row {α : Type} (M N : Nat) (b : (⟨2, ![1, N]⟩ : Shape).Idx → α) (hb : (⟨2, ![1, N]⟩ : Shape).Broadcasts ⟨2, ![M, N]⟩)
    (a : Fin M) (j : Fin N) : broadcastTo ⟨2, ![M, N]⟩ b hb (ix2 a j) = b (ix2 (0 : Fin 1) j) :=
  broadcastTo_apply b hb (ix2 a j) (ix2 (0 : Fin 1) j) (fun ax => by
    match ax with
    | ⟨0, _⟩ =>
      show 0 = if (1 : Nat) = 1 then 0 else a.val
      rw [if_pos rfl]
    | ⟨1, _⟩ =>
      show j.val = if N = 1 then 0 else j.val
      split
      · have := j.isLt; omega
      · rfl)

/-- THE STORED VALUE AT AN ENTRY: row r of the x block against column q of the W block, plus the bias entry q. -/
theorem pay_apply (x0 : Vec Ideal S1x128x1024 .f32) (x1 : Vec Ideal S1x1024x4096 .f32) (x2 : Vec Ideal S1x1x4096 .f32)
    (r : Fin 128) (q : Fin 4096) :
    k0_pay1 (F := Ideal) x0 x1 x2 (ix3 (0 : Fin 1) r q)
      = (∑ k : Fin 1024, x0 (ix3 (0 : Fin 1) r k) * x1 (ix3 (0 : Fin 1) k q)) + x2 (ix3 (0 : Fin 1) (0 : Fin 1) q) := by
  unfold k0_pay1
  refine (shapeCast_apply _ _ (ix3 (0 : Fin 1) r q) (ix2 r q) ?_).trans ?_
  · rw [Shape.rowMajor_val_two, Shape.rowMajor_val_three]
    show r.val * 4096 + q.val = ((0 : Nat) * 128 + r.val) * 4096 + q.val
    omega
  refine congrArg₂ (· + ·) ?_ ?_
  · refine (Cert.LibPlainAny.matmul_plain_zero_any 128 1024 4096 _ _ r q).trans ?_
    refine Finset.sum_congr rfl fun k _ => ?_
    refine congrArg₂ (· * ·) ?_ ?_
    · refine shapeCast_apply x0 _ (ix2 r k) (ix3 (0 : Fin 1) r k) ?_
      rw [Shape.rowMajor_val_two, Shape.rowMajor_val_three]
      show ((0 : Nat) * 128 + r.val) * 1024 + k.val = r.val * 1024 + k.val
      omega
    · refine shapeCast_apply x1 _ (ix2 k q) (ix3 (0 : Fin 1) k q) ?_
      rw [Shape.rowMajor_val_two, Shape.rowMajor_val_three]
      show ((0 : Nat) * 1024 + k.val) * 4096 + q.val = k.val * 4096 + q.val
      omega
  · refine (broadcast_row 128 4096 _ _ r q).trans ?_
    refine shapeCast_apply x2 _ (ix2 (0 : Fin 1) q) (ix3 (0 : Fin 1) (0 : Fin 1) q) ?_
    rw [Shape.rowMajor_val_two, Shape.rowMajor_val_three]
    show ((0 : Nat) * 1 + 0) * 4096 + q.val = 0 * 4096 + q.val
    omega

variable {F : FTy → Type} [FloatOps F]

/-- What the run leaves in the output's block is the stored value of the three input blocks (any float instance). -/
theorem out_piece (c : Dev nD) (i : grid0.Coords) (arg4 : Memref sig .tc .vmem S1x128x1024 .f32) (harg4 : arg4.IsWhole) (arg5 : Memref sig .tc .vmem S1x1024x4096 .f32) (harg5 : arg5.IsWhole) (arg6 : Memref sig .tc .vmem S1x1x4096 .f32) (harg6 : arg6.IsWhole) (arg7 : Memref sig .tc .vmem S1x128x4096 .f32) (harg7 : arg7.IsWhole)
    (x0 : Vec F S1x128x1024 .f32) (x1 : Vec F S1x1024x4096 .f32) (x2 : Vec F S1x1x4096 .f32) (xt0 : TbBuf0 (F := F) c tbM0_0) (xt1 : TbBuf0 (F := F) c tbM0_1) :
    out0_A_3 c i arg4 harg4 arg5 harg5 arg6 harg6 arg7 harg7 x0 x1 x2 xt0 xt1 = k0_pay1 x0 x1 x2 := by
  unfold out0_A_3
  rw [View.read_writes_eq_canon _ _ _ (cover0_A_3 c i arg4 harg4 arg5 harg5 arg6 harg6 arg7 harg7 x0 x1 x2 xt0 xt1)]
  unfold kernelRun0_A
  dsimp only
  rw [View.canon_unit_zero hz3]
  simp only [View.readAt_eq_ld, Memref.IsWhole.read_unread, View.ld_unit_zero (S := S1x128x1024) hz3, View.ld_unit_zero (S := S1x1024x4096) hz3, View.ld_unit_zero (S := S1x1x4096) hz3]

end Cert.KernelIdeal.BodyValue

end
-- ==== Proof.Blocks.lean ====
/-
  Where each window's block sits in its array, and what the input blocks hold.

  The grid has 64 x 4 points; a point (t, u) has a sample position t and a row tile u.  The index maps read the two
  tables at position t: the x block and the result block are at (table0[t], u, 0) in blocks of [1,128,·], the W block
  at (table1[t], 0, 0) in blocks of [1,1024,4096] and the bias block at (table1[t], 0, 0) in blocks of [1,1,4096].
  So entry (0, r, k) of the x block is x[table0[t], 128·u + r, k], entry (0, k, q) of the W block is
  W[table1[t], k, q], and entry (0, 0, q) of the bias block is entry (table1[t], 0, q) of the bias operand, which @main
  made from b by inserting a unit axis: b[table1[t], q].  Every fact about the index maps is proved at ARBITRARY
  contents of the tables and used at the launch's contents last.
-/
import proofs.«427871_j82592221102548_3_alg».proof.Defs
import proofs.«427871_j82592221102548_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]

/-- A grid point's sample position (its coordinate on the axis of 64) and row tile (on the axis of 4). -/
def pb (i : grid0.Coords) : Fin 64 := ⟨(i 0).val, (i 0).isLt⟩
def ps (i : grid0.Coords) : Fin 4 := ⟨(i 1).val, (i 1).isLt⟩

/-- The one index of a unit rectangle at offset n of a [64] table is the table's index n. -/
theorem unit_emb_first (off : Fin 1 → Nat) (inb : ∀ a, off a + S1.size a ≤ S64.size a)
    (h1 : 0 < (Rect.unit (s := S64) off S1.size inb).shape.numel) (n : Fin 64) (hoff : off 0 = n.val) :
    (Rect.unit (s := S64) off S1.size inb).emb (Shape.Idx.first h1) = ix1 n := by
  funext a
  apply Fin.ext
  match a with
  | ⟨0, _⟩ =>
    show off 0 + 1 * (Shape.Idx.first h1 (0 : Fin 1)).val = n.val
    have h := (Shape.Idx.first h1 (0 : Fin 1)).isLt
    have e : (Rect.unit (s := S64) off S1.size inb).shape.size (0 : Fin 1) = 1 := rfl
    rw [hoff]; omega

/-- The table word an index map reads at grid point i is the table's entry at the point's sample position. -/
theorem word0 (pf : pre0.Contents (Elt F)) (i : grid0.Coords) :
    pf.at 0 (Rect.unit (s := S64) ![(Scalar.indexCast (BitVec.ofNat 32 (i 0).val)).toNat] S1.size (k0_off1_inb i)) numel1_S1
      = pf 0 (ix1 (pb i)) := by
  show pf 0 _ = pf 0 _
  refine congrArg (pf 0) (unit_emb_first _ _ _ (pb i) ?_)
  show (BitVec.ofNat 32 (i 0).val).toNat = (i 0).val
  have hi : (i 0).val < 64 := (i 0).isLt
  rw [BitVec.toNat_ofNat]
  omega

theorem tr0 (pf : pre0.Contents (Elt F)) (i : grid0.Coords) :
    cc0_transform_0 k0_off1_inb numel1_S1 pf i = ![(pf 0 (ix1 (pb i))).toNat, (ps i).val, 0] := by
  funext a
  match a with
  | ⟨0, _⟩ => show (pf.at 0 _ _).toNat = _; rw [word0]; rfl
  | ⟨1, _⟩ =>
    show (BitVec.ofNat 32 (i 1).val).toNat = (i 1).val
    have hi : (i 1).val < 4 := (i 1).isLt
    rw [BitVec.toNat_ofNat]; omega
  | ⟨2, _⟩ => rfl

theorem word1 (pf : pre0.Contents (Elt F)) (i : grid0.Coords) :
    pf.at 1 (Rect.unit (s := S64) ![(Scalar.indexCast (BitVec.ofNat 32 (i 0).val)).toNat] S1.size (k0_off1_inb i)) numel1_S1
      = pf 1 (ix1 (pb i)) := by
  show pf 1 _ = pf 1 _
  refine congrArg (pf 1) (unit_emb_first _ _ _ (pb i) ?_)
  show (BitVec.ofNat 32 (i 0).val).toNat = (i 0).val
  have hi : (i 0).val < 64 := (i 0).isLt
  rw [BitVec.toNat_ofNat]
  omega

theorem tr1 (pf : pre0.Contents (Elt F)) (i : grid0.Coords) :
    cc0_transform_1 k0_off1_inb numel1_S1 pf i = ![(pf 1 (ix1 (pb i))).toNat, 0, 0] := by
  funext a
  match a with
  | ⟨0, _⟩ => show (pf.at 1 _ _).toNat = _; rw [word1]; rfl
  | ⟨1, _⟩ => rfl
  | ⟨2, _⟩ => rfl

theorem tr2 (pf : pre0.Contents (Elt F)) (i : grid0.Coords) :
    cc0_transform_2 k0_off1_inb numel1_S1 pf i = ![(pf 1 (ix1 (pb i))).toNat, 0, 0] := by
  funext a
  match a with
  | ⟨0, _⟩ => show (pf.at 1 _ _).toNat = _; rw [word1]; rfl
  | ⟨1, _⟩ => rfl
  | ⟨2, _⟩ => rfl

theorem tr3 (pf : pre0.Contents (Elt F)) (i : grid0.Coords) :
    cc0_transform_3 k0_off1_inb numel1_S1 pf i = ![(pf 0 (ix1 (pb i))).toNat, (ps i).val, 0] := by
  funext a
  match a with
  | ⟨0, _⟩ => show (pf.at 0 _ _).toNat = _; rw [word0]; rfl
  | ⟨1, _⟩ =>
    show (BitVec.ofNat 32 (i 1).val).toNat = (i 1).val
    have hi : (i 1).val < 4 := (i 1).isLt
    rw [BitVec.toNat_ofNat]; omega
  | ⟨2, _⟩ => rfl

/-! ## The blocks' places, at any admissible contents of the tables -/

/-- Entry (0, r, k) of the x block at point t sits at (p, s, k), p the table-0 word and s = 128·u + r. -/
theorem emb0 (a : (pcfg0 (F := F)).Adm) (t : Fin (cfg0 a).N) (r : Fin 128) (k : Fin 1024) (p : Fin 64) (s : Fin 512)
    (hp : (a.1 0 (ix1 (pb (grid0.coords t)))).toNat = p.val) (hs : s.val = (ps (grid0.coords t)).val * 128 + r.val) :
    (((cfg0 a).win 0).blk t).view.emb (ix3 (0 : Fin 1) r k) = ix3 p s k := by
  funext ax
  apply Fin.ext
  match ax with
  | ⟨0, _⟩ =>
    show cc0_transform_0 k0_off1_inb numel1_S1 a.1 (grid0.coords t) 0 * 1 + 1 * 0 = p.val
    rw [tr0]; show (a.1 0 (ix1 (pb (grid0.coords t)))).toNat * 1 + 1 * 0 = p.val; omega
  | ⟨1, _⟩ =>
    show cc0_transform_0 k0_off1_inb numel1_S1 a.1 (grid0.coords t) 1 * 128 + 1 * r.val = s.val
    rw [tr0]; show (ps (grid0.coords t)).val * 128 + 1 * r.val = s.val; omega
  | ⟨2, _⟩ =>
    show cc0_transform_0 k0_off1_inb numel1_S1 a.1 (grid0.coords t) 2 * 1024 + 1 * k.val = k.val
    rw [tr0]; show 0 * 1024 + 1 * k.val = k.val; omega

/-- Entry (0, k, q) of the W block at point t sits at (g, k, q), g the table-1 word. -/
theorem emb1 (a : (pcfg0 (F := F)).Adm) (t : Fin (cfg0 a).N) (k : Fin 1024) (q : Fin 4096) (g : Fin 32)
    (hg : (a.1 1 (ix1 (pb (grid0.coords t)))).toNat = g.val) :
    (((cfg0 a).win 1).blk t).view.emb (ix3 (0 : Fin 1) k q) = ix3 g k q := by
  funext ax
  apply Fin.ext
  match ax with
  | ⟨0, _⟩ =>
    show cc0_transform_1 k0_off1_inb numel1_S1 a.1 (grid0.coords t) 0 * 1 + 1 * 0 = g.val
    rw [tr1]; show (a.1 1 (ix1 (pb (grid0.coords t)))).toNat * 1 + 1 * 0 = g.val; omega
  | ⟨1, _⟩ =>
    show cc0_transform_1 k0_off1_inb numel1_S1 a.1 (grid0.coords t) 1 * 1024 + 1 * k.val = k.val
    rw [tr1]; show 0 * 1024 + 1 * k.val = k.val; omega
  | ⟨2, _⟩ =>
    show cc0_transform_1 k0_off1_inb numel1_S1 a.1 (grid0.coords t) 2 * 4096 + 1 * q.val = q.val
    rw [tr1]; show 0 * 4096 + 1 * q.val = q.val; omega

/-- Entry (0, 0, q) of the bias block at point t sits at (g, 0, q), g the table-1 word. -/
theorem emb2 (a : (pcfg0 (F := F)).Adm) (t : Fin (cfg0 a).N) (q : Fin 4096) (g : Fin 32)
    (hg : (a.1 1 (ix1 (pb (grid0.coords t)))).toNat = g.val) :
    (((cfg0 a).win 2).blk t).view.emb (ix3 (0 : Fin 1) (0 : Fin 1) q) = ix3 g (0 : Fin 1) q := by
  funext ax
  apply Fin.ext
  match ax with
  | ⟨0, _⟩ =>
    show cc0_transform_2 k0_off1_inb numel1_S1 a.1 (grid0.coords t) 0 * 1 + 1 * 0 = g.val
    rw [tr2]; show (a.1 1 (ix1 (pb (grid0.coords t)))).toNat * 1 + 1 * 0 = g.val; omega
  | ⟨1, _⟩ =>
    show cc0_transform_2 k0_off1_inb numel1_S1 a.1 (grid0.coords t) 1 * 1 + 1 * 0 = 0
    rw [tr2]; show 0 * 1 + 1 * 0 = 0; omega
  | ⟨2, _⟩ =>
    show cc0_transform_2 k0_off1_inb numel1_S1 a.1 (grid0.coords t) 2 * 4096 + 1 * q.val = q.val
    rw [tr2]; show 0 * 4096 + 1 * q.val = q.val; omega

/-- Entry (0, r, q) of the result block at point t sits at (p, s, q), p the table-0 word and s = 128·u + r. -/
theorem emb3 (a : (pcfg0 (F := F)).Adm) (t : Fin (cfg0 a).N) (r : Fin 128) (q : Fin 4096) (p : Fin 64) (s : Fin 512)
    (hp : (a.1 0 (ix1 (pb (grid0.coords t)))).toNat = p.val) (hs : s.val = (ps (grid0.coords t)).val * 128 + r.val) :
    (((cfg0 a).win 3).blk t).view.emb (ix3 (0 : Fin 1) r q) = ix3 p s q := by
  funext ax
  apply Fin.ext
  match ax with
  | ⟨0, _⟩ =>
    show cc0_transform_3 k0_off1_inb numel1_S1 a.1 (grid0.coords t) 0 * 1 + 1 * 0 = p.val
    rw [tr3]; show (a.1 0 (ix1 (pb (grid0.coords t)))).toNat * 1 + 1 * 0 = p.val; omega
  | ⟨1, _⟩ =>
    show cc0_transform_3 k0_off1_inb numel1_S1 a.1 (grid0.coords t) 1 * 128 + 1 * r.val = s.val
    rw [tr3]; show (ps (grid0.coords t)).val * 128 + 1 * r.val = s.val; omega
  | ⟨2, _⟩ =>
    show cc0_transform_3 k0_off1_inb numel1_S1 a.1 (grid0.coords t) 2 * 4096 + 1 * q.val = q.val
    rw [tr3]; show 0 * 4096 + 1 * q.val = q.val; omega

/-! ## The bias operand, and the input blocks read off the arrays the region finds -/

variable (m : (ℓ : Loc nD τ sig) → Buf (Elt F) ℓ)

/-- The bias operand the region finds is b with a unit axis inserted. -/
theorem V_bias (c : Dev nD) : (V m c main_v9 : S32x1x4096.Idx → Elt F .f32)
    = broadcastInDim S32x1x4096 ![0, 2] bcast_S32x4096_S32x1x4096_0_2 (m ((c : Thread nD τ).loc main_arg3)) := by
  dsimp only [V]
  simp only [hostOps0, hostOps0_1, hostOps0_2, hostOps0_3, List.flatten_cons, List.flatten_nil, List.append_nil, List.cons_append,
    List.nil_append]
  after_results

/-- It reads, at (g, 0, q), b at (g, q). -/
theorem bias_apply {α : Type} (b : S32x4096.Idx → α) (g : Fin 32) (q : Fin 4096) :
    broadcastInDim S32x1x4096 ![0, 2] bcast_S32x4096_S32x1x4096_0_2 b (ix3 g (0 : Fin 1) q) = b (ix2 g q) :=
  broadcastInDim_apply _ bcast_S32x4096_S32x1x4096_0_2 b (ix3 g (0 : Fin 1) q) (ix2 g q) (fun ax => by
    match ax with
    | ⟨0, _⟩ => show g.val = if (32 : Nat) = 1 then 0 else g.val; rw [if_neg (by decide)]
    | ⟨1, _⟩ => show q.val = if (4096 : Nat) = 1 then 0 else q.val; rw [if_neg (by decide)])

/-- The x block read off the array the region finds, at any admissible contents of the tables. -/
theorem read0 (a : (pcfg0 (F := F)).Adm) (c : Dev nD) (t : Fin (cfg0 a).N) (r : Fin 128) (k : Fin 1024) (p : Fin 64) (s : Fin 512)
    (hp : (a.1 0 (ix1 (pb (grid0.coords t)))).toNat = p.val) (hs : s.val = (ps (grid0.coords t)).val * 128 + r.val) :
    (((cfg0 a).win 0).blk t).view.read (Elt F) (V m c (Pipeline.arrRef spec0 0)) (ix3 (0 : Fin 1) r k)
      = m ((c : Thread nD τ).loc main_arg0) (ix3 p s k) := by
  show V m c main_arg0 ((((cfg0 a).win 0).blk t).view.emb (ix3 (0 : Fin 1) r k)) = _
  rw [emb0 a t r k p s hp hs, V_main_arg0]

/-- The W block likewise. -/
theorem read1 (a : (pcfg0 (F := F)).Adm) (c : Dev nD) (t : Fin (cfg0 a).N) (k : Fin 1024) (q : Fin 4096) (g : Fin 32)
    (hg : (a.1 1 (ix1 (pb (grid0.coords t)))).toNat = g.val) :
    (((cfg0 a).win 1).blk t).view.read (Elt F) (V m c (Pipeline.arrRef spec0 1)) (ix3 (0 : Fin 1) k q)
      = m ((c : Thread nD τ).loc main_arg2) (ix3 g k q) := by
  show V m c main_arg2 ((((cfg0 a).win 1).blk t).view.emb (ix3 (0 : Fin 1) k q)) = _
  rw [emb1 a t k q g hg, V_main_arg2]

/-- The bias block likewise. -/
theorem read2 (a : (pcfg0 (F := F)).Adm) (c : Dev nD) (t : Fin (cfg0 a).N) (q : Fin 4096) (g : Fin 32)
    (hg : (a.1 1 (ix1 (pb (grid0.coords t)))).toNat = g.val) :
    (((cfg0 a).win 2).blk t).view.read (Elt F) (V m c (Pipeline.arrRef spec0 2)) (ix3 (0 : Fin 1) (0 : Fin 1) q)
      = m ((c : Thread nD τ).loc main_arg3) (ix2 g q) := by
  show V m c main_v9 ((((cfg0 a).win 2).blk t).view.emb (ix3 (0 : Fin 1) (0 : Fin 1) q)) = _
  rw [emb2 a t q g hg, V_bias, bias_apply]

end Cert.KernelIdeal.Blocks

end
-- ==== Proof.KernelValue.lean ====
/-
  The idealized kernel's result array.

  At grid point (t, u) the body's stored value is, entry by entry, the sum over k of the x block's row against the W
  block's column plus the bias block's entry (Proof/BodyValue.lean); the x block is rows 128·u … of sample p = table0[t],
  the W and bias blocks are those of category table1[t], which is the id of sample p (Proof/Blocks.lean,
  Proof/TablesIdeal.lean).  So what point (t, u) writes back is exactly the block at (p, u) of the per-category linear
  layer `out` of the argument arrays.  The row tile u changes from every point to the next, so every point writes its block
  back; and table 0 names every sample, so every entry (j, s, q) of the result lies in the block written by the point
  (t, s / 128) with table0[t] = j.  Blocks written twice would hold the same values, so no injectivity is needed.
  Everything about the index maps is stated at arbitrary admissible contents of the tables and instantiated last.
-/
import proofs.«427871_j82592221102548_3_alg».proof.Defs
import proofs.«427871_j82592221102548_3_alg».proof.Proof.Gen.KernelIdeal.Frame
import proofs.«427871_j82592221102548_3_alg».proof.Proof.CategoryLinear
import proofs.«427871_j82592221102548_3_alg».proof.Proof.TablesIdeal
import proofs.«427871_j82592221102548_3_alg».proof.Proof.BodyValue
import proofs.«427871_j82592221102548_3_alg».proof.Proof.Blocks
import Idealize.ShloMosaic.Lib.Pipeline.Value

set_option maxRecDepth 16384

noncomputable section

namespace Cert.KernelIdeal.KernelValue

open Cert.KernelIdeal Cert.KernelIdeal.Gen Cert.KernelIdeal.Tables Cert.KernelIdeal.Blocks Cert.KernelIdeal.BodyValue
open Idealize.ShloMosaic Idealize.ShloMosaic.TcCoe Idealize.SL.Sem Idealize.ShloMosaic.ValueIdx Cert.CategoryLinear
open Idealize.ShloMosaic.Pipeline (Dat)

/-! ## One point's stored value is a block of the result -/

/-- If the three input blocks hold rows 128·u … of sample p of x, and the matrix and bias row of sample p's category,
    the stored value's entry (0, r, q) is the result's entry (p, 128·u + r, q). -/
theorem point_value (X : SX.Idx → EReal) (ids : IVec SIds 32) (W : SW.Idx → EReal) (B : SB.Idx → EReal)
    (x0 : Vec Ideal S1x128x1024 .f32) (x1 : Vec Ideal S1x1024x4096 .f32) (x2 : Vec Ideal S1x1x4096 .f32)
    (p : Fin 64) (u : Fin 4)
    (h0 : ∀ (r : Fin 128) (k : Fin 1024) (s : Fin 512), s.val = u.val * 128 + r.val → x0 (ix3 (0 : Fin 1) r k) = X (ix3 p s k))
    (h1 : ∀ (k : Fin 1024) (q : Fin 4096), x1 (ix3 (0 : Fin 1) k q) = W (ix3 (cat ids p) k q))
    (h2 : ∀ q : Fin 4096, x2 (ix3 (0 : Fin 1) (0 : Fin 1) q) = B (ix2 (cat ids p) q))
    (r : Fin 128) (q : Fin 4096) (s : Fin 512) (hs : s.val = u.val * 128 + r.val) :
    k0_pay1 (F := Ideal) x0 x1 x2 (ix3 (0 : Fin 1) r q) = Cert.CategoryLinear.out X ids W B (ix3 p s q) := by
  rw [pay_apply, out_apply]
  refine congrArg₂ (· + ·) (Finset.sum_congr rfl fun k _ => ?_) (h2 q)
  rw [h0 r k s hs, h1 k q]

variable (m : (ℓ : Loc nD τ sig) → Buf (Elt Ideal) ℓ) (ρ : Dev nD → PrngReg)

/-- The per-category linear layer of the argument arrays the launch memory holds. -/
abbrev result : S64x512x4096.Idx → EReal :=
  Cert.CategoryLinear.out (m (((0 : Dev nD) : Thread nD τ).loc main_arg0)) (m (((0 : Dev nD) : Thread nD τ).loc main_arg1))
    (m (((0 : Dev nD) : Thread nD τ).loc main_arg2)) (m (((0 : Dev nD) : Thread nD τ).loc main_arg3))

/-! ## The grid's points by coordinates -/

theorem stride0 : grid0.stride (0 : Fin 2) = 4 := by decide
theorem stride1 : grid0.stride (1 : Fin 2) = 1 := by decide

theorem pb_val (t : Fin grid0.N) : (pb (grid0.coords t)).val = t.val / 4 % 64 := by
  show t.val / grid0.stride (0 : Fin 2) % 64 = _
  rw [stride0]
theorem ps_val (t : Fin grid0.N) : (ps (grid0.coords t)).val = t.val % 4 := by
  show t.val / grid0.stride (1 : Fin 2) % 4 = _
  rw [stride1, Nat.div_one]

/-! ## At any admissible contents of the tables -/

/-- WHAT A POINT WRITES BACK: with table 0 naming samples and table 1 their categories, the stored value of the three
    input blocks, through the result window's block, is the result's block. -/
theorem flushed_at (a : (pcfg0 (F := Ideal)).Adm) (pf : pre0.Contents (Elt Ideal)) (hpf : a.1 = pf)
    (hlt : ∀ i : S64.Idx, (pf 0 i).toNat < 64)
    (hcat : ∀ t : Fin 64, (pf 1 (ix1 t)).toNat
      = (cat (m (((0 : Dev nD) : Thread nD τ).loc main_arg1)) ⟨(pf 0 (ix1 t)).toNat, hlt _⟩).val)
    (t : Fin (cfg0 a).N) :
    ((cfg0 a).win 3).cut ((cfg0 a).grid.coords t)
        (k0_pay1 (F := Ideal) ((((cfg0 a).win 0).blk t).view.read (Elt Ideal) (V m 0 (Pipeline.arrRef spec0 0)))
          ((((cfg0 a).win 1).blk t).view.read (Elt Ideal) (V m 0 (Pipeline.arrRef spec0 1)))
          ((((cfg0 a).win 2).blk t).view.read (Elt Ideal) (V m 0 (Pipeline.arrRef spec0 2))))
      = (((cfg0 a).win 3).blk t).view.read (Elt Ideal) (result m) := by
  subst hpf
  refine funext fun (y : S1x128x4096.Idx) => ?_
  obtain ⟨z, r, q, rfl⟩ : ∃ (z : Fin 1) (r : Fin 128) (q : Fin 4096), y = ix3 z r q := ⟨y 0, y 1, y 2, eq_ix3 y⟩
  obtain rfl : z = 0 := Subsingleton.elim _ _
  show k0_pay1 (F := Ideal) _ _ _ (ix3 (0 : Fin 1) r q) = result m ((((cfg0 a).win 3).blk t).view.emb (ix3 (0 : Fin 1) r q))
  have hu := (ps (grid0.coords t)).isLt
  have hr := r.isLt
  rw [emb3 a t r q ⟨(a.1 0 (ix1 (pb (grid0.coords t)))).toNat, hlt _⟩ ⟨(ps (grid0.coords t)).val * 128 + r.val, by omega⟩ rfl rfl]
  exact point_value _ _ _ _ _ _ _ _ (ps (grid0.coords t))
    (fun r k s hs => read0 m a 0 t r k _ s rfl hs)
    (fun k q => read1 m a 0 t k q _ (hcat _))
    (fun q => read2 m a 0 t q _ (hcat _)) r q _ rfl

/-- EVERY POINT WRITES ITS BLOCK BACK: the row tile changes from each point to the next. -/
theorem flush3 (a : (pcfg0 (F := Ideal)).Adm) (t : Fin (cfg0 a).N) : ((cfg0 a).win 3).flush t = true := by
  unfold Pipeline.Window.flush
  show (true && _) = true
  rw [Bool.true_and, Bool.or_eq_true, decide_eq_true_eq, decide_eq_true_eq]
  change t.val + 1 = grid0.N ∨ ∃ h : t.val + 1 < grid0.N, ((cfg0 a).win 3).index ⟨t.val + 1, h⟩ ≠ ((cfg0 a).win 3).index t
  by_cases hlast : t.val + 1 = grid0.N
  · exact Or.inl hlast
  · have hN : t.val < grid0.N := t.isLt
    refine Or.inr ⟨by omega, fun he => ?_⟩
    have e1 := congrFun he (1 : Fin 3)
    change cc0_transform_3 k0_off1_inb numel1_S1 a.1 (grid0.coords ⟨t.val + 1, _⟩) 1
      = cc0_transform_3 k0_off1_inb numel1_S1 a.1 (grid0.coords t) 1 at e1
    rw [tr3, tr3] at e1
    change (ps (grid0.coords ⟨t.val + 1, _⟩)).val = (ps (grid0.coords t)).val at e1
    rw [ps_val, ps_val] at e1
    change (t.val + 1) % 4 = t.val % 4 at e1
    omega

/-- EVERY ENTRY OF THE RESULT LIES IN SOME POINT'S BLOCK, table 0 naming every sample. -/
theorem cover_at (a : (pcfg0 (F := Ideal)).Adm) (pf : pre0.Contents (Elt Ideal)) (hpf : a.1 = pf)
    (hsurj : ∀ j : Fin 64, ∃ t : Fin 64, (pf 0 (ix1 t)).toNat = j.val) (i : S64x512x4096.Idx) :
    ∃ t : Fin (cfg0 a).N, ((cfg0 a).win 3).flush t = true ∧ i ∈ (((cfg0 a).win 3).blk t).view.set := by
  subst hpf
  obtain ⟨j, s, q, rfl⟩ : ∃ (j : Fin 64) (s : Fin 512) (q : Fin 4096), i = ix3 j s q := ⟨i 0, i 1, i 2, eq_ix3 i⟩
  obtain ⟨tb, htb⟩ := hsurj j
  have hs := s.isLt
  have htbl := tb.isLt
  have hN : tb.val * 4 + s.val / 128 < grid0.N := by rw [N_0]; omega
  have c0 : pb (grid0.coords ⟨tb.val * 4 + s.val / 128, hN⟩) = tb := Fin.ext (by rw [pb_val]; show (tb.val * 4 + s.val / 128) / 4 % 64 = tb.val; omega)
  have c1 : (ps (grid0.coords ⟨tb.val * 4 + s.val / 128, hN⟩)).val = s.val / 128 := by rw [ps_val]; show (tb.val * 4 + s.val / 128) % 4 = s.val / 128; omega
  refine ⟨⟨tb.val * 4 + s.val / 128, hN⟩, flush3 a _, ?_⟩
  rw [← emb3 a ⟨tb.val * 4 + s.val / 128, hN⟩ ⟨s.val % 128, Nat.mod_lt _ (by omega)⟩ q j s (by rw [c0]; exact htb) (by rw [c1]; show s.val = s.val / 128 * 128 + s.val % 128; omega)]
  exact View.emb_mem_set _ _

/-! ## At the launch's tables -/

/-- What point t of the launch writes back is its block of the result. -/
theorem flushed_eq (h : ∀ j : Fin 64, InRange (ids m (ix1 j))) (hO : Ok m) (t : Fin (cfgM m hO).N) :
    (dats m hO 0 0).flushed 3 t = (((cfgM m hO).win 3).blk t).view.read (Elt Ideal) (result m) := by
  have hcat : ∀ t : Fin 64, (tbl m 1 (ix1 t)).toNat
      = (cat (m (((0 : Dev nD) : Thread nD τ).loc main_arg1)) ⟨(tbl m 0 (ix1 t)).toNat, perm_lt m _⟩).val := fun t => by
    rw [sorted_cat m h t]; exact (cat_val (h _)).symm
  show ((cfgM m hO).win 3).cut ((cfgM m hO).grid.coords t) ((dats m hO 0 0).after 3 t) = _
  rw [after0_3]
  unfold outsAt0
  refine (congrArg (((cfgM m hO).win 3).cut ((cfgM m hO).grid.coords t))
    (out_piece (F := Ideal) 0 (grid0.coords t) _ _ _ _ _ _ _ _ (iblk m hO 0 0 t) (iblk m hO 0 1 t) (iblk m hO 0 2 t) (tbl m 0) (tbl m 1))).trans ?_
  exact flushed_at m (adm m hO) (tbl m) rfl (perm_lt m) hcat t

/-- The result array after the run. -/
theorem final (h : ∀ j : Fin 64, InRange (ids m (ix1 j))) (hO : Ok m) :
    (dats m hO 0 0).arrAt 3 (cfgM m hO).N = result m :=
  (dats m hO 0 0).arrAt_eq_of_cover 3 (result m) (fun t _ => flushed_eq m h hO t) (cover_at (adm m hO) (tbl m) rfl (perm_surj m))

/-- THE KERNEL'S RUN with its result named: with the ids in range the result array ends at the per-category
    linear layer of the argument arrays, which end unchanged. -/
theorem run (h : ∀ j : Fin 64, InRange (ids m (ix1 j))) :
    θ_run defs (onTc (τ := τ) (main (F := Ideal))) ⟨m, fun _ => 0, ρ⟩ fun r => ∀ c : Dev nD,
      r.2.mem ((c.tc : Thread nD τ).loc main_v10) = Cert.CategoryLinear.out (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hO := ok_of_inRange m h
  refine (θ_run defs _ _).mono (fun _ hq c => ?_) (run_main m ρ hO)
  obtain rfl : c = 0 := Subsingleton.elim _ _
  exact ⟨((hq 0).1 3).trans (final m h hO),
    ((hq 0).1 0).trans (((dats m hO 0 0).arrAt_in 0 rfl _).trans ((A_eq m hO 0 0).trans (V_main_arg0 m 0))),
    ((hq 0).2 main_arg1 (by decide : main_arg1 ∈ Pipeline.restRefs sig spec0)).trans (V_main_arg1 m 0),
    ((hq 0).1 1).trans (((dats m hO 0 0).arrAt_in 1 rfl _).trans ((A_eq m hO 0 1).trans (V_main_arg2 m 0))),
    ((hq 0).2 main_arg3 (by decide : main_arg3 ∈ Pipeline.restRefs sig spec0)).trans (V_main_arg3 m 0)⟩

end Cert.KernelIdeal.KernelValue

end
-- ==== Proof.RefValue.lean ====
/-
  The reference read as one function of the argument arrays.

  jnp's `W[ids]` and `b[ids]` are gathers whose start word is the id, wrapped by 32 when negative and clamped into
  0 … 31; for an id in range neither the wrap nor the clamp changes it.  The batched product contracts x's last axis with
  the gathered matrix's middle axis, and the gathered bias row is laid along the 512 rows.
-/
import proofs.«427871_j82592221102548_3_alg».proof.Defs
import proofs.«427871_j82592221102548_3_alg».proof.Proof.Gen.ReferenceIdeal
import proofs.«427871_j82592221102548_3_alg».proof.Proof.Gen.ReferenceIdeal.Run
import proofs.«427871_j82592221102548_3_alg».proof.Proof.Gen.ReferenceIdeal.Read
import proofs.«427871_j82592221102548_3_alg».proof.Proof.CategoryLinear

noncomputable section

namespace Cert.ReferenceIdeal.RefValue

open Cert.ReferenceIdeal Cert.ReferenceIdeal.Gen Cert.ReferenceIdeal.Read
open Idealize.ShloMosaic Idealize.ShloMosaic.ValueIdx Cert.CategoryLinear

/-! ## The start word of a gather

Each gather reads its start index off a 64 × 1 column: the ids, with 32 added to a negative one, laid along a
trailing unit axis.  For an id in range the wrap is not taken, so the word at (j, 0) is sample j's id. -/

/-- The start column of the matrix gather at a position of row `j` is sample `j`'s id. -/
theorem start_word (ids : (⟨S64, .i32⟩ : BufTy).Contents (Elt Ideal)) (j : Fin 64) (h : InRange (ids (ix1 j)))
    (i : S64x1.Idx) (hi : (i 0).val = j.val) : val_main_v5 (F := Ideal) ids i = ids (ix1 j) := by
  have ei : idx_main_v5 i = ix1 j := funext fun a => Fin.ext (by match a with | ⟨0, _⟩ => exact hi)
  rw [val_main_v5_apply, val_main_v4_apply, val_main_v1_apply, val_main_v3_apply, val_main_v0_apply,
    val_main_v2_apply, val_main_c_apply, val_main_c_0_apply, ei]
  exact h.wrap

/-- The start column of the bias gather (a second copy of the same chain) likewise. -/
theorem start_word' (ids : (⟨S64, .i32⟩ : BufTy).Contents (Elt Ideal)) (j : Fin 64) (h : InRange (ids (ix1 j)))
    (i : S64x1.Idx) (hi : (i 0).val = j.val) : val_main_v12 (F := Ideal) ids i = ids (ix1 j) := by
  have ei : idx_main_v12 i = ix1 j := funext fun a => Fin.ext (by match a with | ⟨0, _⟩ => exact hi)
  rw [val_main_v12_apply, val_main_v11_apply, val_main_v8_apply, val_main_v10_apply, val_main_v7_apply,
    val_main_v9_apply, val_main_c_1_apply, val_main_c_2_apply, ei]
  exact h.wrap

/-! ## The two gathers

A gather's operand index is, per operand axis, (clamped start) + (batching coordinate) + (offset coordinate).
Neither gather has batching axes.  Axis 0 is collapsed and is the one axis the start index names: its coordinate is
the start word, read signed and clamped into 0 … 31, and an id in range is its own clamp.  Every other axis is an
offset axis with start 0: its coordinate is the result's own coordinate on that axis. -/

abbrev GW := gather_S32x1024x4096_S64x1_S64x1024x4096_12_0_n_n_0_1_110244096
abbrev GB := gather_S32x4096_S64x1_S64x4096_1_0_n_n_0_1_14096

/-- `W[ids]` at (j, k, h) is `W` at (category of j, k, h). -/
theorem gatherW (ids : (⟨S64, .i32⟩ : BufTy).Contents (Elt Ideal)) (W : (⟨S32x1024x4096, .f32⟩ : BufTy).Contents (Elt Ideal))
    (j : Fin 64) (h : InRange (ids (ix1 j))) (k : Fin 1024) (hh : Fin 4096) :
    val_main_v6 (F := Ideal) ids W (ix3 j k hh) = W (ix3 (cat ids j) k hh) := by
  unfold val_main_v6 Host.gather
  congr 1
  funext a; apply Fin.ext
  have hb : ∀ a, GW.batchCoord (ix3 j k hh) a = 0 := fun a => GW.batchCoord_eq_zero _ a (List.not_mem_nil)
  show GW.start (ix3 j k hh) (val_main_v5 ids) a + GW.batchCoord (ix3 j k hh) a + GW.offCoord (ix3 j k hh) a = _
  rw [hb, Nat.add_zero]
  -- which axes the start index names, and which are offset axes
  have m0 : (0 : Fin 3) ∈ GW.startIndexMap := by decide
  have n1 : (1 : Fin 3) ∉ GW.startIndexMap := by decide
  have n2 : (2 : Fin 3) ∉ GW.startIndexMap := by decide
  have k0 : (0 : Fin 3) ∉ GW.sKept := by decide
  have k1 : (1 : Fin 3) ∈ GW.sKept := by decide
  have k2 : (2 : Fin 3) ∈ GW.sKept := by decide
  match a with
  | ⟨0, _⟩ =>
    -- min (id, signed, as a natural) (32 − 1) = min (id, unsigned) 31
    show GW.start (ix3 j k hh) (val_main_v5 ids) (0 : Fin 3) + GW.offCoord (ix3 j k hh) (0 : Fin 3) = (cat ids j).val
    rw [GW.offCoord_eq_zero _ _ k0, Nat.add_zero]
    unfold GatherDims.start
    rw [dif_pos m0, start_word ids j h _ rfl, h.toInt_toNat]
    rfl
  | ⟨1, _⟩ =>
    show GW.start (ix3 j k hh) (val_main_v5 ids) (1 : Fin 3) + GW.offCoord (ix3 j k hh) (1 : Fin 3) = k.val
    unfold GatherDims.start GatherDims.offCoord
    rw [dif_neg n1, Nat.zero_add, dif_pos k1]
    rfl
  | ⟨2, _⟩ =>
    show GW.start (ix3 j k hh) (val_main_v5 ids) (2 : Fin 3) + GW.offCoord (ix3 j k hh) (2 : Fin 3) = hh.val
    unfold GatherDims.start GatherDims.offCoord
    rw [dif_neg n2, Nat.zero_add, dif_pos k2]
    rfl

/-- `b[ids]` at (j, h) is `b` at (category of j, h). -/
theorem gatherB (ids : (⟨S64, .i32⟩ : BufTy).Contents (Elt Ideal)) (b : (⟨S32x4096, .f32⟩ : BufTy).Contents (Elt Ideal))
    (j : Fin 64) (h : InRange (ids (ix1 j))) (hh : Fin 4096) :
    val_main_v13 (F := Ideal) ids b (ix2 j hh) = b (ix2 (cat ids j) hh) := by
  unfold val_main_v13 Host.gather
  congr 1
  funext a; apply Fin.ext
  have hb : ∀ a, GB.batchCoord (ix2 j hh) a = 0 := fun a => GB.batchCoord_eq_zero _ a (List.not_mem_nil)
  show GB.start (ix2 j hh) (val_main_v12 ids) a + GB.batchCoord (ix2 j hh) a + GB.offCoord (ix2 j hh) a = _
  rw [hb, Nat.add_zero]
  have m0 : (0 : Fin 2) ∈ GB.startIndexMap := by decide
  have n1 : (1 : Fin 2) ∉ GB.startIndexMap := by decide
  have k0 : (0 : Fin 2) ∉ GB.sKept := by decide
  have k1 : (1 : Fin 2) ∈ GB.sKept := by decide
  match a with
  | ⟨0, _⟩ =>
    show GB.start (ix2 j hh) (val_main_v12 ids) (0 : Fin 2) + GB.offCoord (ix2 j hh) (0 : Fin 2) = (cat ids j).val
    rw [GB.offCoord_eq_zero _ _ k0, Nat.add_zero]
    unfold GatherDims.start
    rw [dif_pos m0, start_word' ids j h _ rfl, h.toInt_toNat]
    rfl
  | ⟨1, _⟩ =>
    show GB.start (ix2 j hh) (val_main_v12 ids) (1 : Fin 2) + GB.offCoord (ix2 j hh) (1 : Fin 2) = hh.val
    unfold GatherDims.start GatherDims.offCoord
    rw [dif_neg n1, Nat.zero_add, dif_pos k1]
    rfl

/-! ## The last stage -/

/-- With every id in range, the reference's last stage is the per-category linear layer. -/
theorem ref_eq_out (x : (⟨S64x512x1024, .f32⟩ : BufTy).Contents (Elt Ideal)) (ids : (⟨S64, .i32⟩ : BufTy).Contents (Elt Ideal))
    (W : (⟨S32x1024x4096, .f32⟩ : BufTy).Contents (Elt Ideal)) (b : (⟨S32x4096, .f32⟩ : BufTy).Contents (Elt Ideal))
    (h : ∀ j : Fin 64, InRange (ids (ix1 j))) :
    val_main_v17 (F := Ideal) x ids W b = Cert.CategoryLinear.out x ids W b := by
  funext i
  obtain ⟨j, s, hh, rfl⟩ : ∃ (j : Fin 64) (s : Fin 512) (hh : Fin 4096), i = ix3 j s hh := ⟨i 0, i 1, i 2, eq_ix3 i⟩
  -- the batched product reads x at (j, s, k) and the gathered matrix at (j, k, h)
  have el : ∀ k : Fin 1024, lidx_main_v14 (ix3 j s hh) k = ix3 j s k := fun k => funext fun a => Fin.ext (by
    match a with | ⟨0, _⟩ => rfl | ⟨1, _⟩ => rfl | ⟨2, _⟩ => rfl)
  have er : ∀ k : Fin 1024, ridx_main_v14 (ix3 j s hh) k = ix3 j k hh := fun k => funext fun a => Fin.ext (by
    match a with | ⟨0, _⟩ => rfl | ⟨1, _⟩ => rfl | ⟨2, _⟩ => rfl)
  -- the bias row laid along the 512 rows reads the gathered bias at (j, h)
  have eb : idx_main_v15 (idx_main_v16 (ix3 j s hh)) = ix2 j hh := funext fun a => Fin.ext (by
    match a with | ⟨0, _⟩ => rfl | ⟨1, _⟩ => rfl)
  refine Eq.trans ?_ (out_apply x ids W b j s hh).symm
  rw [val_main_v17_apply, val_main_v14_apply, val_main_v16_apply, val_main_v15_apply, eb, gatherB ids b j (h j) hh]
  -- over the extended reals the float sum is +; both sides are now the same sum plus the same bias
  show (_ + _ : EReal) = _
  congr 1
  refine Finset.sum_congr rfl fun k _ => ?_
  rw [el, er, gatherW ids W j (h j) k hh]

end Cert.ReferenceIdeal.RefValue

end
-- ==== Proof.lean ====
/-
  A per-sample linear layer chosen by a category id: the kernel against its jnp reference, over the extended reals.

  Both programs compute, for sample j with category id c(j) in 0 … 31,
      out[j, s, h] = (∑ k, x[j, s, k] · W[c(j), k, h]) + b[c(j), h].
  The kernel visits the samples in the order of a stable sort of the clipped ids: at grid point (t, s) it reads rows
  128·s … 128·s+127 of sample p(t), the matrix and bias row of category c(p(t)), and writes the same rows of sample
  p(t) of the result; p is a permutation of the 64 samples, so every row block of the result is written, by the one
  point that names it.  The reference gathers the matrices and bias rows by id (a negative id wrapping by 32, the
  start index clamped into 0 … 31) and multiplies sample by sample.  With every id in its range 0 … 31 — the
  precondition — the kernel's clip, the reference's wrap and the gather's clamp all leave the id, and the two results
  are one function of the arguments (Proof/CategoryLinear.lean `out`).  The product is a sum over k on both sides
  (a matrix product into a zero accumulator; a change of float format is the identity on the extended reals), so no
  algebraic law beyond that reading is needed and finiteness of the float inputs is not used.

  The frames of the two kernel programs hold once each window's block lies inside its array at every grid point:
  every entry of the sorted-position table is below 64 and every entry of the sorted-id table below 32
  (Proof/TablesBits.lean, Proof/TablesIdeal.lean).  The reference's frame is its run with the result dropped.
-/
import proofs.«427871_j82592221102548_3_alg».proof.Defs
import proofs.«427871_j82592221102548_3_alg».proof.Proof.Gen.Kernel
import proofs.«427871_j82592221102548_3_alg».proof.Proof.Gen.Kernel.Frame
import proofs.«427871_j82592221102548_3_alg».proof.Proof.Gen.KernelIdeal
import proofs.«427871_j82592221102548_3_alg».proof.Proof.Gen.KernelIdeal.Frame
import proofs.«427871_j82592221102548_3_alg».proof.Proof.Gen.ReferenceIdeal
import proofs.«427871_j82592221102548_3_alg».proof.Proof.Gen.ReferenceIdeal.Run
import proofs.«427871_j82592221102548_3_alg».proof.Proof.Gen.ReferenceIdeal.Read
import proofs.«427871_j82592221102548_3_alg».proof.Proof.Gen.Pre_finite_inputs
import proofs.«427871_j82592221102548_3_alg».proof.Proof.IdsInRange
import proofs.«427871_j82592221102548_3_alg».proof.Proof.TablesBits
import proofs.«427871_j82592221102548_3_alg».proof.Proof.TablesIdeal
import proofs.«427871_j82592221102548_3_alg».proof.Proof.KernelValue
import proofs.«427871_j82592221102548_3_alg».proof.Proof.RefValue

noncomputable section

namespace Cert.Proof

open Idealize.ShloMosaic Idealize.ShloMosaic.TcCoe Idealize.SL.Sem Idealize.ShloMosaic.ValueIdx Cert.CategoryLinear

/-- The precondition of the kernel as printed gives every id in range. -/
theorem inRange_Kernel (m : (ℓ : Loc Cert.Kernel.nD Cert.Kernel.τ Cert.Kernel.sig) → Buf (Elt Bits) ℓ) (h : Cert.Pre_Kernel m) :
    ∀ j : Fin 64, InRange (Cert.Kernel.Tables.ids m (ix1 j)) := fun j => ids_inRange _ _ _ _ (h 0) j

/-- The precondition of the idealized kernel gives every id in range. -/
theorem inRange_KernelIdeal (m : (ℓ : Loc Cert.KernelIdeal.nD Cert.KernelIdeal.τ Cert.KernelIdeal.sig) → Buf (Elt Ideal) ℓ)
    (h : Cert.Pre_KernelIdeal m) : ∀ j : Fin 64, InRange (Cert.KernelIdeal.Tables.ids m (ix1 j)) := fun j => ids_inRange _ _ _ _ (h 0) j

theorem frame_k : Cert.frame_Kernel := fun m ρ h =>
  Cert.Kernel.Gen.frame m ρ (Cert.Kernel.Tables.ok_of_inRange m (inRange_Kernel m h))

theorem frame_ki : Cert.frame_KernelIdeal := fun m ρ h =>
  Cert.KernelIdeal.Gen.frame m ρ (Cert.KernelIdeal.Tables.ok_of_inRange m (inRange_KernelIdeal m h))

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the per-category linear layer of the kernel's
    arguments. -/
theorem algebraic : Cert.algebraic_KernelIdeal_ReferenceIdeal := by
  intro m ρ m' ρ' hpre hagree
  have hr := inRange_KernelIdeal m hpre
  refine ⟨fun c => Cert.CategoryLinear.out (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)), Cert.KernelIdeal.KernelValue.run m ρ hr, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v17_eq, (hagree 0).1, (hagree 0).2.1, (hagree 0).2.2.1, (hagree 0).2.2.2]
  exact Cert.ReferenceIdeal.RefValue.ref_eq_out _ _ _ _ hr

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
